-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x64 : Shape := ⟨3, ![4, 8192, 64]⟩
abbrev S4x8192x16 : Shape := ⟨3, ![4, 8192, 16]⟩
abbrev S192x128 : Shape := ⟨2, ![192, 128]⟩
abbrev S128 : Shape := ⟨1, ![128]⟩
abbrev S128x128 : Shape := ⟨2, ![128, 128]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x8192x64 .f32) (main_arg1 : IVec S4x8192x16 32) (main_arg2 : FVec F S192x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S192x128 .f32 := Host.absf main_arg2
  let main_cst_0 : FVec F S_ .f32 := constant S_ .f32 0x7F800000#32
  let main_v5 : FVec F S192x128 .f32 := broadcastInDim S192x128 ![] bcast_S_S192x128 main_cst_0
  let main_v6 : IVec S192x128 1 := cmpf .olt main_v4 main_v5
  let main_c_1 : IVec S_ 1 := constantI S_ 1 1#1
  let main_v7 : IVec S_ 1 := (fun x v => Host.reduce IntOp.andi x v reducesTo_S192x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S4x8192x64 : Shape := ⟨3, ![4, 8192, 64]⟩
abbrev S4x8192x16 : Shape := ⟨3, ![4, 8192, 16]⟩
abbrev S192x128 : Shape := ⟨2, ![192, 128]⟩
abbrev S128 : Shape := ⟨1, ![128]⟩
abbrev S128x128 : Shape := ⟨2, ![128, 128]⟩
abbrev S_ : Shape := ⟨0, ![]⟩
abbrev S4x8192x16x1 : Shape := ⟨4, ![4, 8192, 16, 1]⟩
abbrev S4x8192x16x64 : Shape := ⟨4, ![4, 8192, 16, 64]⟩
abbrev S64x128 : Shape := ⟨2, ![64, 128]⟩
abbrev S1x128 : Shape := ⟨2, ![1, 128]⟩
abbrev S4x8192x128 : Shape := ⟨3, ![4, 8192, 128]⟩
abbrev S1x512x64 : Shape := ⟨3, ![1, 512, 64]⟩
abbrev S1x512x16x64 : Shape := ⟨4, ![1, 512, 16, 64]⟩
abbrev S1x512x128 : Shape := ⟨3, ![1, 512, 128]⟩
abbrev S512x64 : Shape := ⟨2, ![512, 64]⟩
abbrev S512x16x64 : Shape := ⟨3, ![512, 16, 64]⟩
abbrev S512x128 : Shape := ⟨2, ![512, 128]⟩
abbrev S8192x64 : Shape := ⟨2, ![8192, 64]⟩
abbrev S8192x128 : Shape := ⟨2, ![8192, 128]⟩
abbrev S512x16x128 : Shape := ⟨3, ![512, 16, 128]⟩
abbrev S512x1x128 : Shape := ⟨3, ![512, 1, 128]⟩
abbrev S1x1x128 : Shape := ⟨3, ![1, 1, 128]⟩

abbrev nBuf : Space → Nat
  | .hbm => 33
  | .vmem => 13
  | .smem => 0
  | _ => 0

abbrev bufTy : (tb : Table) → Fin (tcTables nBuf tb) → BufTy
  | .hbm, ⟨0, _⟩ => ⟨S4x8192x64, .f32⟩
  | .hbm, ⟨1, _⟩ => ⟨S4x8192x16, .i32⟩
  | .hbm, ⟨2, _⟩ => ⟨S192x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S4x8192x16, .i32⟩
  | .hbm, ⟨10, _⟩ => ⟨S4x8192x16, .i1⟩
  | .hbm, ⟨11, _⟩ => ⟨S_, .i32⟩
  | .hbm, ⟨12, _⟩ => ⟨S4x8192x16, .i32⟩
  | .hbm, ⟨13, _⟩ => ⟨S4x8192x16, .i32⟩
  | .hbm, ⟨14, _⟩ => ⟨S4x8192x16, .i32⟩
  | .hbm, ⟨15, _⟩ => ⟨S4x8192x16x1, .i32⟩
  | .hbm, ⟨16, _⟩ => ⟨S4x8192x16x64, .f32⟩
  | .hbm, ⟨17, _⟩ => ⟨S4x8192x64, .bf16⟩
  | .hbm, ⟨18, _⟩ => ⟨S4x8192x16x64, .bf16⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S64x128, .bf16⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S64x128, .bf16⟩
  | .hbm, ⟨27, _⟩ => ⟨S128x128, .bf16⟩
  | .hbm, ⟨28, _⟩ => ⟨S128x128, .bf16⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S4x8192x128, .f32⟩
  | .local _ .vmem, ⟨0, _⟩ => ⟨S1x512x64, .bf16⟩
  | .local _ .vmem, ⟨1, _⟩ => ⟨S1x512x64, .bf16⟩
  | .local _ .vmem, ⟨2, _⟩ => ⟨S1x512x16x64, .bf16⟩
  | .local _ .vmem, ⟨3, _⟩ => ⟨S1x512x16x64, .bf16⟩
  | .local _ .vmem, ⟨4, _⟩ => ⟨S64x128, .bf16⟩
  | .local _ .vmem, ⟨5, _⟩ => ⟨S64x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S1x512x128, .f32⟩
  | .local _ .vmem, ⟨12, _⟩ => ⟨S1x512x128, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S_S4x8192x16 : S_.BroadcastsInDim S4x8192x16 (![] : Fin 0 → Fin S4x8192x16.rank)
  bcast_S4x8192x16_S4x8192x16x1_0_1_2 : S4x8192x16.BroadcastsInDim S4x8192x16x1 (![0, 1, 2] : Fin 3 → Fin S4x8192x16x1.rank)
  bitsLt_bf16_f32 : FTy.bits .bf16 < FTy.bits .f32
  slices_S192x128_S64x128_0_0 : S192x128.Slices ![0, 0] S64x128
  slices_S192x128_S64x128_128_0 : S192x128.Slices ![128, 0] S64x128
  slices_S192x128_S64x128_64_0 : S192x128.Slices ![64, 0] S64x128
  shapeCasts_S128_S1x128 : S128.ShapeCasts S1x128
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x16x64_S1x512x16x64_0_0_0_0 : ∀ a, (![0, 0, 0, 0] : Fin 4 → Nat) a + S1x512x16x64.size a ≤ S1x512x16x64.size a
  h_S1x512x16x64 : 0 < S1x512x16x64.numel
  shapeCasts_S1x512x16x64_S512x16x64 : S1x512x16x64.ShapeCasts S512x16x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S512x16x64_S8192x64 : S512x16x64.ShapeCasts S8192x64
  shapeCasts_S8192x128_S512x16x128 : S8192x128.ShapeCasts S512x16x128
  shapeCasts_S512x128_S512x1x128 : S512x128.ShapeCasts S512x1x128
  broadcasts_S512x1x128_S512x16x128 : S512x1x128.Broadcasts S512x16x128
  shapeCasts_S1x128_S1x1x128 : S1x128.ShapeCasts S1x1x128
  broadcasts_S1x1x128_S512x16x128 : S1x1x128.Broadcasts S512x16x128
  shapeCasts_S512x16x128_S8192x128 : S512x16x128.ShapeCasts S8192x128
  broadcasts_S1x128_S8192x128 : S1x128.Broadcasts S8192x128
  reduces_S512x16x128_S512x128 : S512x16x128.Reduces [1] S512x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  gather_S4x8192x64_S4x8192x16x1_S4x8192x16x64_3_1_0_0_1_3_1164_wf : GatherDims.WF S4x8192x64 S4x8192x16x1 S4x8192x16x64 [3] [1] [0] [1] [0] 3 ![1, 1, 64]
  dot_S512x64_S64x128_S512x128_1_0_0_1_n_n_wf : DotDims.WF S512x64 S64x128 S512x128 [1] [0] [0] [1] [] []
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x8192x64.size a
  hwx0_0 : ∀ i : grid0.Coords, EltTy.bits .bf16 = 32 ∨ (Rect.block (s := S4x8192x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x16x64.size a ≤ S4x8192x16x64.size a
  hwx0_1 : ∀ i : grid0.Coords, EltTy.bits .bf16 = 32 ∨ (Rect.block (s := S4x8192x16x64) S1x512x16x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x128.size a ≤ S4x8192x128.size a
  hwx0_9 : ∀ i : grid0.Coords, EltTy.bits .f32 = 32 ∨ (Rect.block (s := S4x8192x128) S1x512x128.size (cc0_transform_9 i) (hinb0_9 i)).WholeWords (EltTy.packing .f32)

variable [Facts₀]

def gather_S4x8192x64_S4x8192x16x1_S4x8192x16x64_3_1_0_0_1_3_1164 : GatherDims S4x8192x64 S4x8192x16x1 S4x8192x16x64 where
  offsetDims := [3]
  collapsedSliceDims := [1]
  operandBatchingDims := [0]
  startIndicesBatchingDims := [0]
  startIndexMap := [1]
  indexVectorDim := 3
  sliceSizes := ![1, 1, 64]
  wf := gather_S4x8192x64_S4x8192x16x1_S4x8192x16x64_3_1_0_0_1_3_1164_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v7) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x512x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x512x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x8192x64 : Shape := ⟨3, ![4, 8192, 64]⟩
abbrev S4x8192x16 : Shape := ⟨3, ![4, 8192, 16]⟩
abbrev S192x128 : Shape := ⟨2, ![192, 128]⟩
abbrev S128 : Shape := ⟨1, ![128]⟩
abbrev S128x128 : Shape := ⟨2, ![128, 128]⟩
abbrev S_ : Shape := ⟨0, ![]⟩
abbrev S4x8192x16x1 : Shape := ⟨4, ![4, 8192, 16, 1]⟩
abbrev S4x8192x16x64 : Shape := ⟨4, ![4, 8192, 16, 64]⟩
abbrev S4x8192x1x64 : Shape := ⟨4, ![4, 8192, 1, 64]⟩
abbrev S4x8192x16x192 : Shape := ⟨4, ![4, 8192, 16, 192]⟩
abbrev S4x8192x16x128 : Shape := ⟨4, ![4, 8192, 16, 128]⟩
abbrev S1x1x1x128 : Shape := ⟨4, ![1, 1, 1, 128]⟩
abbrev S4x8192x128 : Shape := ⟨3, ![4, 8192, 128]⟩
abbrev S1x1x128 : Shape := ⟨3, ![1, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S4x8192x16, .i32⟩
  | .hbm, ⟨2, _⟩ => ⟨S192x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S4x8192x16, .i32⟩
  | .hbm, ⟨10, _⟩ => ⟨S4x8192x16, .i1⟩
  | .hbm, ⟨11, _⟩ => ⟨S_, .i32⟩
  | .hbm, ⟨12, _⟩ => ⟨S4x8192x16, .i32⟩
  | .hbm, ⟨13, _⟩ => ⟨S4x8192x16, .i32⟩
  | .hbm, ⟨14, _⟩ => ⟨S4x8192x16, .i32⟩
  | .hbm, ⟨15, _⟩ => ⟨S4x8192x16x1, .i32⟩
  | .hbm, ⟨16, _⟩ => ⟨S4x8192x16x64, .f32⟩
  | .hbm, ⟨17, _⟩ => ⟨S4x8192x1x64, .f32⟩
  | .hbm, ⟨18, _⟩ => ⟨S4x8192x16x64, .f32⟩
  | .hbm, ⟨19, _⟩ => ⟨S4x8192x16x64, .f32⟩
  | .hbm, ⟨20, _⟩ => ⟨S4x8192x16x192, .f32⟩
  | .hbm, ⟨21, _⟩ => ⟨S4x8192x16x128, .f32⟩
  | .hbm, ⟨22, _⟩ => ⟨S1x1x1x128, .f32⟩
  | .hbm, ⟨23, _⟩ => ⟨S4x8192x16x128, .f32⟩
  | .hbm, ⟨24, _⟩ => ⟨S4x8192x16x128, .f32⟩
  | .hbm, ⟨25, _⟩ => ⟨S_, .f32⟩
  | .hbm, ⟨26, _⟩ => ⟨S4x8192x16x128, .f32⟩
  | .hbm, ⟨27, _⟩ => ⟨S4x8192x16x128, .f32⟩
  | .hbm, ⟨28, _⟩ => ⟨S4x8192x16x128, .f32⟩
  | .hbm, ⟨29, _⟩ => ⟨S1x1x1x128, .f32⟩
  | .hbm, ⟨30, _⟩ => ⟨S4x8192x16x128, .f32⟩
  | .hbm, ⟨31, _⟩ => ⟨S4x8192x16x128, .f32⟩
  | .hbm, ⟨32, _⟩ => ⟨S_, .f32⟩
  | .hbm, ⟨33, _⟩ => ⟨S4x8192x16x128, .f32⟩
  | .hbm, ⟨34, _⟩ => ⟨S4x8192x16x128, .f32⟩
  | .hbm, ⟨35, _⟩ => ⟨S_, .f32⟩
  | .hbm, ⟨36, _⟩ => ⟨S4x8192x128, .f32⟩
  | .hbm, ⟨37, _⟩ => ⟨S4x8192x128, .f32⟩
  | .hbm, ⟨38, _⟩ => ⟨S1x1x128, .f32⟩
  | .hbm, ⟨39, _⟩ => ⟨S4x8192x128, .f32⟩
  | .hbm, ⟨40, _⟩ => ⟨S4x8192x128, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_cst : Ref sig .tc := ⟨.hbm, 32, rfl⟩
abbrev main_call1_v0 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S_S4x8192x16 : S_.BroadcastsInDim S4x8192x16 (![] : Fin 0 → Fin S4x8192x16.rank)
  bcast_S4x8192x16_S4x8192x16x1_0_1_2 : S4x8192x16.BroadcastsInDim S4x8192x16x1 (![0, 1, 2] : Fin 3 → Fin S4x8192x16x1.rank)
  bcast_S4x8192x64_S4x8192x1x64_0_1_3 : S4x8192x64.BroadcastsInDim S4x8192x1x64 (![0, 1, 3] : Fin 3 → Fin S4x8192x1x64.rank)
  bcast_S4x8192x1x64_S4x8192x16x64_0_1_2_3 : S4x8192x1x64.BroadcastsInDim S4x8192x16x64 (![0, 1, 2, 3] : Fin 4 → Fin S4x8192x16x64.rank)
  concatenates_S4x8192x16x64_S4x8192x16x64_S4x8192x16x64_S4x8192x16x192_d3 : Shape.Concatenates [S4x8192x16x64, S4x8192x16x64, S4x8192x16x64] S4x8192x16x192 3
  bcast_S128_S1x1x1x128_3 : S128.BroadcastsInDim S1x1x1x128 (![3] : Fin 1 → Fin S1x1x1x128.rank)
  bcast_S1x1x1x128_S4x8192x16x128_0_1_2_3 : S1x1x1x128.BroadcastsInDim S4x8192x16x128 (![0, 1, 2, 3] : Fin 4 → Fin S4x8192x16x128.rank)
  bcast_S_S4x8192x16x128 : S_.BroadcastsInDim S4x8192x16x128 (![] : Fin 0 → Fin S4x8192x16x128.rank)
  reducesTo_S4x8192x16x128_S4x8192x128_d2 : S4x8192x16x128.ReducesTo [2] S4x8192x128
  h_S_ : 0 < S_.numel
  bcast_S128_S1x1x128_2 : S128.BroadcastsInDim S1x1x128 (![2] : Fin 1 → Fin S1x1x128.rank)
  bcast_S1x1x128_S4x8192x128_0_1_2 : S1x1x128.BroadcastsInDim S4x8192x128 (![0, 1, 2] : Fin 3 → Fin S4x8192x128.rank)
  gather_S4x8192x64_S4x8192x16x1_S4x8192x16x64_3_1_0_0_1_3_1164_wf : GatherDims.WF S4x8192x64 S4x8192x16x1 S4x8192x16x64 [3] [1] [0] [1] [0] 3 ![1, 1, 64]
  dot_S4x8192x16x192_S192x128_S4x8192x16x128_3_0_012_1_n_n_wf : DotDims.WF S4x8192x16x192 S192x128 S4x8192x16x128 [3] [0] [0, 1, 2] [1] [] []
  dot_S4x8192x16x128_S128x128_S4x8192x16x128_3_0_012_1_n_n_wf : DotDims.WF S4x8192x16x128 S128x128 S4x8192x16x128 [3] [0] [0, 1, 2] [1] [] []
  dot_S4x8192x128_S128x128_S4x8192x128_2_0_01_1_n_n_wf : DotDims.WF S4x8192x128 S128x128 S4x8192x128 [2] [0] [0, 1] [1] [] []

variable [Facts₀]

def gather_S4x8192x64_S4x8192x16x1_S4x8192x16x64_3_1_0_0_1_3_1164 : GatherDims S4x8192x64 S4x8192x16x1 S4x8192x16x64 where
  offsetDims := [3]
  collapsedSliceDims := [1]
  operandBatchingDims := [0]
  startIndicesBatchingDims := [0]
  startIndexMap := [1]
  indexVectorDim := 3
  sliceSizes := ![1, 1, 64]
  wf := gather_S4x8192x64_S4x8192x16x1_S4x8192x16x64_3_1_0_0_1_3_1164_wf
def dot_S4x8192x16x192_S192x128_S4x8192x16x128_3_0_012_1_n_n : DotDims S4x8192x16x192 S192x128 S4x8192x16x128 where
  lhsContracting := [3]
  rhsContracting := [0]
  lhsNonContracting := [0, 1, 2]
  rhsNonContracting := [1]
  lhsBatch := []
  rhsBatch := []
  wf := dot_S4x8192x16x192_S192x128_S4x8192x16x128_3_0_012_1_n_n_wf
def dot_S4x8192x16x128_S128x128_S4x8192x16x128_3_0_012_1_n_n : DotDims S4x8192x16x128 S128x128 S4x8192x16x128 where
  lhsContracting := [3]
  rhsContracting := [0]
  lhsNonContracting := [0, 1, 2]
  rhsNonContracting := [1]
  lhsBatch := []
  rhsBatch := []
  wf := dot_S4x8192x16x128_S128x128_S4x8192x16x128_3_0_012_1_n_n_wf
def dot_S4x8192x128_S128x128_S4x8192x128_2_0_01_1_n_n : DotDims S4x8192x128 S128x128 S4x8192x128 where
  lhsContracting := [2]
  rhsContracting := [0]
  lhsNonContracting := [0, 1]
  rhsNonContracting := [1]
  lhsBatch := []
  rhsBatch := []
  wf := dot_S4x8192x128_S128x128_S4x8192x128_2_0_01_1_n_n_wf

class Facts : Prop extends Facts₀ where

variable [Facts]
-- ==== Proof.MlpSpec.lean ====
/-
  The function both programs compute, and the one law that joins their two spellings of it.

  A point `n` of a cloud carries a feature row `f` (64 numbers) and sixteen gathered neighbour rows `K k`. The first
  layer applies a 192-row weight matrix `W1` to the concatenated row `[f, K k, K k - f]` and adds a bias; the reference
  spells it that way. The kernel never forms the concatenation: with `W1` cut into three blocks of 64 rows, low, middle
  and high, it multiplies `f` by `low - high` and `K k` by `middle + high`. Over the real numbers the two are equal,

      sum_c f c * lo c + sum_c K c * mid c + sum_c (K c - f c) * hi c
        = sum_c f c * (lo c - hi c) + sum_c K c * (mid c + hi c),

  term by term, by distributivity; on the extended reals distributivity needs every factor finite, which is what the
  hypotheses of `pre1Concat_eq_pre1Folded` ask. After the first layer the two programs agree operation by operation
  (a rectifier, a second linear layer with its bias and rectifier, the maximum over the sixteen neighbours starting
  from minus infinity, a third linear layer with its bias): `mlpTail`, stated once over any first layer `P`.
-/
import Idealize.ShloMosaic.PureOps.Ideal
import Idealize.ShloMosaic.PureOps.Ideal.Laws

noncomputable section

namespace Cert.KnnMlp

open Idealize.ShloMosaic

/-- An extended real that is a real number: neither infinity. -/
def IsReal (x : EReal) : Prop := ∃ r : ℝ, x = (r : EReal)

/-- An extended real whose absolute value `max x (-x)` is below plus infinity is a real number. -/
theorem isReal_of_abs_lt_top {x : EReal} (h : max x (-x) < ⊤) : IsReal x := by
  induction x using EReal.rec with
  | bot => exact absurd h (by simp)
  | coe r => exact ⟨r, rfl⟩
  | top => exact absurd h (by simp)

/-! ## The three row blocks of a 192-row matrix -/

/-- Row `c` of the low block: row `c`. -/
def rowLo (c : Fin 64) : Fin 192 := ⟨c.val, by have := c.isLt; omega⟩
/-- Row `c` of the middle block: row `64 + c`. -/
def rowMid (c : Fin 64) : Fin 192 := ⟨64 + c.val, by have := c.isLt; omega⟩
/-- Row `c` of the high block: row `128 + c`. -/
def rowHi (c : Fin 64) : Fin 192 := ⟨128 + c.val, by have := c.isLt; omega⟩

/-- The concatenated row `[f, K, K - f]`, column by column. -/
def catRow (f K : Fin 64 → EReal) (c : Fin 192) : EReal :=
  if h : c.val < 64 then f ⟨c.val, h⟩
  else if h' : c.val < 128 then K ⟨c.val - 64, by have := c.isLt; omega⟩
  else K ⟨c.val - 128, by have := c.isLt; omega⟩ - f ⟨c.val - 128, by have := c.isLt; omega⟩

theorem catRow_lo (f K : Fin 64 → EReal) (c : Fin 64) : catRow f K (rowLo c) = f c := by
  unfold catRow rowLo
  rw [dif_pos (show c.val < 64 from c.isLt)]

theorem catRow_mid (f K : Fin 64 → EReal) (c : Fin 64) : catRow f K (rowMid c) = K c := by
  unfold catRow rowMid
  have hc := c.isLt
  rw [dif_neg (show ¬(64 + c.val < 64) by omega), dif_pos (show 64 + c.val < 128 by omega)]
  exact congrArg K (Fin.ext (by show 64 + c.val - 64 = c.val; omega))

theorem catRow_hi (f K : Fin 64 → EReal) (c : Fin 64) : catRow f K (rowHi c) = K c - f c := by
  unfold catRow rowHi
  have hc := c.isLt
  rw [dif_neg (show ¬(128 + c.val < 64) by omega), dif_neg (show ¬(128 + c.val < 128) by omega)]
  have e : (⟨128 + c.val - 128, by omega⟩ : Fin 64) = c := Fin.ext (by show 128 + c.val - 128 = c.val; omega)
  rw [e]

/-- A sum over 192 rows is the sum of the sums over its three blocks of 64. -/
theorem sum_rows (T : Fin 192 → EReal) :
    ∑ c : Fin 192, T c = (∑ c : Fin 64, T (rowLo c)) + (∑ c : Fin 64, T (rowMid c)) + ∑ c : Fin 64, T (rowHi c) := by
  have h1 : ∑ c : Fin 192, T c = (∑ c : Fin 64, T (Fin.castAdd 128 c)) + ∑ d : Fin 128, T (Fin.natAdd 64 d) :=
    Fin.sum_univ_add (M := EReal) (a := 64) (b := 128) T
  have h2 : ∑ d : Fin 128, T (Fin.natAdd 64 d)
      = (∑ c : Fin 64, T (Fin.natAdd 64 (Fin.castAdd 64 c))) + ∑ c : Fin 64, T (Fin.natAdd 64 (Fin.natAdd 64 c)) :=
    Fin.sum_univ_add (M := EReal) (a := 64) (b := 64) fun d => T (Fin.natAdd 64 d)
  rw [h1, h2, ← add_assoc]
  have e0 : ∀ c : Fin 64, (Fin.castAdd 128 c : Fin 192) = rowLo c := fun c => Fin.ext rfl
  have e1 : ∀ c : Fin 64, (Fin.natAdd 64 (Fin.castAdd 64 c) : Fin 192) = rowMid c := fun c => Fin.ext rfl
  have e2 : ∀ c : Fin 64, (Fin.natAdd 64 (Fin.natAdd 64 c) : Fin 192) = rowHi c := fun c =>
    Fin.ext (by show 64 + (64 + c.val) = 128 + c.val; omega)
  simp only [e0, e1, e2]

/-! ## The first layer, in its two spellings -/

/-- The first layer before its rectifier as the reference spells it: the concatenated row against the whole `W1`. -/
def pre1Concat (f : Fin 64 → EReal) (K : Fin 16 → Fin 64 → EReal) (W1 : Fin 192 → Fin 128 → EReal) (b1 : Fin 128 → EReal)
    (k : Fin 16) (g : Fin 128) : EReal :=
  (∑ c : Fin 192, catRow f (K k) c * W1 c g) + b1 g

/-- The first layer before its rectifier as the kernel spells it: `f` against `low - high`, the neighbour row against
    `middle + high`. -/
def pre1Folded (f : Fin 64 → EReal) (K : Fin 16 → Fin 64 → EReal) (W1 : Fin 192 → Fin 128 → EReal) (b1 : Fin 128 → EReal)
    (k : Fin 16) (g : Fin 128) : EReal :=
  ((∑ c : Fin 64, f c * (W1 (rowLo c) g - W1 (rowHi c) g)) + ∑ c : Fin 64, K k c * (W1 (rowMid c) g + W1 (rowHi c) g)) + b1 g

/-- One column's share of the law, over real numbers. -/
theorem fold_term {a k x y z : EReal} (ha : IsReal a) (hk : IsReal k) (hx : IsReal x) (hy : IsReal y) (hz : IsReal z) :
    a * x + k * y + (k - a) * z = a * (x - z) + k * (y + z) := by
  obtain ⟨a, rfl⟩ := ha
  obtain ⟨k, rfl⟩ := hk
  obtain ⟨x, rfl⟩ := hx
  obtain ⟨y, rfl⟩ := hy
  obtain ⟨z, rfl⟩ := hz
  exact_mod_cast (by ring : a * x + k * y + (k - a) * z = a * (x - z) + k * (y + z))

/-- THE LAW: for finite features, neighbour rows and weights the two spellings of the first layer are equal. -/
theorem pre1Concat_eq_pre1Folded (f : Fin 64 → EReal) (K : Fin 16 → Fin 64 → EReal) (W1 : Fin 192 → Fin 128 → EReal)
    (b1 : Fin 128 → EReal) (hf : ∀ c, IsReal (f c)) (hK : ∀ k c, IsReal (K k c)) (hW : ∀ c g, IsReal (W1 c g))
    (k : Fin 16) (g : Fin 128) : pre1Concat f K W1 b1 k g = pre1Folded f K W1 b1 k g := by
  unfold pre1Concat pre1Folded
  refine congrArg (· + b1 g) ?_
  rw [sum_rows]
  simp only [catRow_lo, catRow_mid, catRow_hi]
  rw [← Finset.sum_add_distrib, ← Finset.sum_add_distrib, ← Finset.sum_add_distrib]
  exact Finset.sum_congr rfl fun c _ => fold_term (hf c) (hK k c) (hW _ g) (hW _ g) (hW _ g)

/-! ## The layers after the first -/

/-- From a first layer `P` (before its rectifier, per neighbour `k` and hidden unit `g`) to output unit `o`: rectify,
    apply `W2` and `b2`, rectify, take the maximum over the sixteen neighbours from minus infinity, apply `W3` and `b3`. -/
def mlpTail (P : Fin 16 → Fin 128 → EReal) (W2 : Fin 128 → Fin 128 → EReal) (b2 : Fin 128 → EReal)
    (W3 : Fin 128 → Fin 128 → EReal) (b3 : Fin 128 → EReal) (o : Fin 128) : EReal :=
  (∑ h : Fin 128,
      (Finset.univ.fold max (Ideal.ofBits .f32 0xFF800000#32) fun k : Fin 16 =>
        max ((∑ g : Fin 128, max (P k g) (Ideal.ofBits .f32 0x00000000#32) * W2 g h) + b2 h) (Ideal.ofBits .f32 0x00000000#32))
      * W3 h o) + b3 o

end Cert.KnnMlp

end
-- ==== Proof.FiniteInputs.lean ====
/-
  From the precondition to the two facts the law needs: every entry of the feature array and every entry of the first
  weight matrix is a real number. The precondition is a conjunction, one conjunct per float argument, each saying that
  every entry's absolute value is below plus infinity; the conjuncts of the feature array and of the first weight matrix
  are the two innermost.
-/
import proofs.«102421_j42872363548712_1_alg».proof.Pre_finite_inputs
import proofs.«102421_j42872363548712_1_alg».proof.Proof.MlpSpec
import Idealize.ShloMosaic.Lib.ReduceAll
import Idealize.ShloMosaic.Lib.ValueIdx

noncomputable section

namespace Cert.KnnMlp.Finite

open Idealize.ShloMosaic Cert.Pre_finite_inputs Cert.KnnMlp

/-- The scalar shape has exactly one index. -/
instance : Subsingleton S_.Idx := ⟨fun a b => funext fun d => d.elim0⟩

/-- The 32-bit pattern `0x7F800000` (sign 0, exponent all ones, fraction 0) denotes plus infinity. -/
theorem ofBits_inf : Ideal.ofBits .f32 0x7F800000#32 = (⊤ : EReal) := by
  simp [Ideal.ofBits, Ideal.ieee]

/-- A number whose absolute value compares strictly below plus infinity is a real number. -/
theorem isReal_of_cmp (x : Ideal .f32)
    (hx : FloatOps.cmpf .olt (FloatOps.absf x) (Ideal.ofBits .f32 0x7F800000#32) = 1#1) : IsReal x := by
  rw [Ideal.cmpf_def, Ideal.absf_def, ofBits_inf] at hx
  refine isReal_of_abs_lt_top ?_
  by_contra hn
  simp [Ideal.cmp, hn] at hx

/-- A conjunction of two scalar truth values that is true has both conjuncts true. -/
theorem andi_ix0 (x y : IVec S_ 1) (e : andi x y ValueIdx.ix0 = 1#1) :
    x ValueIdx.ix0 = 1#1 ∧ y ValueIdx.ix0 = 1#1 :=
  IntOp.andi_eq_one.1 e

/-- Under the precondition every entry of the features `a0` and of the first weight matrix `a2` is a real number. -/
theorem reals_of_pre [Cert.Pre_finite_inputs.Facts]
    (a0 : FVec Ideal S4x8192x64 .f32) (a1 : IVec S4x8192x16 32) (a2 : FVec Ideal S192x128 .f32) (a3 : FVec Ideal S128 .f32)
    (a4 : FVec Ideal S128x128 .f32) (a5 : FVec Ideal S128 .f32) (a6 : FVec Ideal S128x128 .f32) (a7 : FVec Ideal S128 .f32)
    (h : Cert.Pre_finite_inputs.fn (F := Ideal) a0 a1 a2 a3 a4 a5 a6 a7 = fun _ => 1#1) :
    (∀ i, IsReal (a0 i)) ∧ ∀ i, IsReal (a2 i) := by
  -- The precondition is a function on the one-point index set; read it at that point.
  have h0 := congrFun h ValueIdx.ix0
  dsimp only [fn, fn_part1] at h0
  -- It is a left-nested conjunction of seven "all entries finite" tests, one per float argument; the tests of the
  -- features and of the first weight matrix are the innermost pair, so peel off the five outer right-hand conjuncts.
  obtain ⟨h5, -⟩ := andi_ix0 _ _ h0
  obtain ⟨h4, -⟩ := andi_ix0 _ _ h5
  obtain ⟨h3, -⟩ := andi_ix0 _ _ h4
  obtain ⟨h2, -⟩ := andi_ix0 _ _ h3
  obtain ⟨h1, -⟩ := andi_ix0 _ _ h2
  obtain ⟨hA, hW⟩ := andi_ix0 _ _ h1
  -- A conjunction over all entries that is true is true at each entry, and at an entry `x` the test reads
  -- `|x| < +∞`, which makes `x` a real number.
  refine ⟨fun i => isReal_of_cmp _ ?_, fun i => isReal_of_cmp _ ?_⟩
  · exact Host.reduce_andi_all _ _ _ _ _ hA i
  · exact Host.reduce_andi_all _ _ _ _ _ hW i

end Cert.KnnMlp.Finite

end
-- ==== Proof.RefIsSpec.lean ====
/-
  The reference, read at an output index (b, n, o): its last stage is the shared tail applied to the first layer in the
  concatenated spelling, with the feature row of point (b, n), the sixteen gathered neighbour rows of that point, and the
  weights and biases read coordinate by coordinate.
-/
import proofs.«102421_j42872363548712_1_alg».proof.Proof.Gen.ReferenceIdeal.Read
import proofs.«102421_j42872363548712_1_alg».proof.Proof.MlpSpec
import Idealize.ShloMosaic.Lib.ValueIdx
import Idealize.ShloMosaic.Lib.Pipeline.Value
import Idealize.ShloMosaic.PureOps.Reduce
import Idealize.ShloMosaic.PureOps.Ideal.Laws

noncomputable section

namespace Cert.KnnMlp.Ref

open Idealize.ShloMosaic Idealize.ShloMosaic.ValueIdx Cert.ReferenceIdeal Cert.ReferenceIdeal.Read Cert.KnnMlp

/-- The feature row broadcast over the neighbours, read at (b, n, k, c): the feature of point (b, n) at column c. -/
theorem bcastRow_apply (x0 : FVec Ideal S4x8192x64 .f32) (b : Fin 4) (n : Fin 8192) (k : Fin 16) (c : Fin 64) :
    val_main_v8 (F := Ideal) x0 (ix4 b n k c) = x0 (ix3 b n c) := by
  rw [val_main_v8_apply, val_main_v7_apply]
  refine congrArg x0 (funext fun a => Fin.ext ?_)
  match a with
  | ⟨0, _⟩ => rfl
  | ⟨1, _⟩ => rfl
  | ⟨2, _⟩ => rfl

/-- The concatenated row at column c is `catRow` of the feature row and the k-th gathered row. -/
theorem cat_apply (x0 : FVec Ideal S4x8192x64 .f32) (x1 : IVec S4x8192x16 32) (b : Fin 4) (n : Fin 8192) (k : Fin 16)
    (c : Fin 192) :
    val_main_v10 (F := Ideal) x0 x1 (ix4 b n k c)
      = catRow (fun c => x0 (ix3 b n c)) (fun c => val_main_v6 (F := Ideal) x0 x1 (ix4 b n k c)) c := by
  have hc := c.isLt
  have piece := concatenate_apply_piece (t := S4x8192x16x192) 3
    [⟨S4x8192x16x64, val_main_v8 (F := Ideal) x0⟩, ⟨S4x8192x16x64, val_main_v6 (F := Ideal) x0 x1⟩,
      ⟨S4x8192x16x64, val_main_v9 (F := Ideal) x0 x1⟩]
    Gen.concatenates_S4x8192x16x64_S4x8192x16x64_S4x8192x16x64_S4x8192x16x192_d3 (ix4 b n k c)
  have off : ∀ (d : Fin 64) (a : Fin S4x8192x16x64.rank), a.cast (rfl : S4x8192x16x64.rank = S4x8192x16x192.rank) ≠ 3 →
      ((ix4 b n k d : S4x8192x16x64.Idx) a).val = ((ix4 b n k c : S4x8192x16x192.Idx) (a.cast rfl)).val := fun d a ha => by
    match a with
    | ⟨0, _⟩ => rfl
    | ⟨1, _⟩ => rfl
    | ⟨2, _⟩ => rfl
    | ⟨3, _⟩ => exact absurd rfl ha
  unfold catRow val_main_v10
  by_cases h0 : c.val < 64
  · rw [dif_pos h0]
    refine (piece 0 (Nat.zero_lt_succ _) S4x8192x16x64 (val_main_v8 (F := Ideal) x0) rfl rfl 0 rfl (ix4 b n k ⟨c.val, h0⟩)
      (off _) ?_).trans (bcastRow_apply x0 b n k ⟨c.val, h0⟩)
    show 0 + c.val = c.val
    omega
  · rw [dif_neg h0]
    by_cases h1 : c.val < 128
    · rw [dif_pos h1]
      refine piece 1 (Nat.succ_lt_succ (Nat.zero_lt_succ _)) S4x8192x16x64 (val_main_v6 (F := Ideal) x0 x1) rfl rfl 64 rfl
        (ix4 b n k ⟨c.val - 64, by omega⟩) (off _) ?_
      show 64 + (c.val - 64) = c.val
      omega
    · rw [dif_neg h1]
      refine (piece 2 (Nat.succ_lt_succ (Nat.succ_lt_succ (Nat.zero_lt_succ _))) S4x8192x16x64 (val_main_v9 (F := Ideal) x0 x1)
        rfl rfl 128 rfl (ix4 b n k ⟨c.val - 128, by omega⟩) (off _) ?_).trans ?_
      · show 128 + (c.val - 128) = c.val
        omega
      · rw [val_main_v9_apply, bcastRow_apply]
        rfl

/-- The first layer before its rectifier at (b, n, k, g): the concatenated row against the weights, plus the bias. -/
theorem layer1_apply (x0 : FVec Ideal S4x8192x64 .f32) (x1 : IVec S4x8192x16 32) (x2 : FVec Ideal S192x128 .f32)
    (x3 : FVec Ideal S128 .f32) (b : Fin 4) (n : Fin 8192) (k : Fin 16) (g : Fin 128) :
    val_main_v14 (F := Ideal) x0 x1 x2 x3 (ix4 b n k g)
      = pre1Concat (fun c => x0 (ix3 b n c)) (fun k c => val_main_v6 (F := Ideal) x0 x1 (ix4 b n k c))
          (fun c g => x2 (ix2 c g)) (fun g => x3 (ix1 g)) k g := by
  have el : ∀ c : Fin 192, lidx_main_v11 (ix4 b n k g) c = ix4 b n k c := fun c => funext fun a => Fin.ext (by
    match a with
    | ⟨0, _⟩ => rfl
    | ⟨1, _⟩ => rfl
    | ⟨2, _⟩ => rfl
    | ⟨3, _⟩ => rfl)
  have er : ∀ c : Fin 192, ridx_main_v11 (ix4 b n k g) c = ix2 c g := fun c => funext fun a => Fin.ext (by
    match a with
    | ⟨0, _⟩ => rfl
    | ⟨1, _⟩ => rfl)
  have eb : idx_main_v12 (idx_main_v13 (ix4 b n k g)) = ix1 g := funext fun a => Fin.ext (by
    match a with
    | ⟨0, _⟩ => rfl)
  rw [val_main_v14_apply, val_main_v11_apply, val_main_v13_apply, val_main_v12_apply, eb]
  unfold pre1Concat
  refine congrArg (· + x3 (ix1 g)) (Finset.sum_congr rfl fun c _ => ?_)
  rw [el, er, cat_apply]

/-- The rectified first layer at (b, n, k, g). -/
theorem relu1_apply (x0 : FVec Ideal S4x8192x64 .f32) (x1 : IVec S4x8192x16 32) (x2 : FVec Ideal S192x128 .f32)
    (x3 : FVec Ideal S128 .f32) (b : Fin 4) (n : Fin 8192) (k : Fin 16) (g : Fin 128) :
    val_main_v15 (F := Ideal) x0 x1 x2 x3 (ix4 b n k g)
      = max (pre1Concat (fun c => x0 (ix3 b n c)) (fun k c => val_main_v6 (F := Ideal) x0 x1 (ix4 b n k c))
          (fun c g => x2 (ix2 c g)) (fun g => x3 (ix1 g)) k g) (Ideal.ofBits .f32 0x00000000#32) := by
  rw [val_main_v15_apply, val_main_call0_v0_apply, val_main_call0_cst_apply, layer1_apply]
  rfl

/-- The rectified second layer at (b, n, k, h). -/
theorem relu2_apply (x0 : FVec Ideal S4x8192x64 .f32) (x1 : IVec S4x8192x16 32) (x2 : FVec Ideal S192x128 .f32)
    (x3 : FVec Ideal S128 .f32) (x4 : FVec Ideal S128x128 .f32) (x5 : FVec Ideal S128 .f32)
    (b : Fin 4) (n : Fin 8192) (k : Fin 16) (h : Fin 128) :
    val_main_v20 (F := Ideal) x0 x1 x2 x3 x4 x5 (ix4 b n k h)
      = max ((∑ g : Fin 128,
            max (pre1Concat (fun c => x0 (ix3 b n c)) (fun k c => val_main_v6 (F := Ideal) x0 x1 (ix4 b n k c))
              (fun c g => x2 (ix2 c g)) (fun g => x3 (ix1 g)) k g) (Ideal.ofBits .f32 0x00000000#32) * x4 (ix2 g h))
          + x5 (ix1 h)) (Ideal.ofBits .f32 0x00000000#32) := by
  have el : ∀ g : Fin 128, lidx_main_v16 (ix4 b n k h) g = ix4 b n k g := fun g => funext fun a => Fin.ext (by
    match a with
    | ⟨0, _⟩ => rfl
    | ⟨1, _⟩ => rfl
    | ⟨2, _⟩ => rfl
    | ⟨3, _⟩ => rfl)
  have er : ∀ g : Fin 128, ridx_main_v16 (ix4 b n k h) g = ix2 g h := fun g => funext fun a => Fin.ext (by
    match a with
    | ⟨0, _⟩ => rfl
    | ⟨1, _⟩ => rfl)
  have eb : idx_main_v17 (idx_main_v18 (ix4 b n k h)) = ix1 h := funext fun a => Fin.ext (by
    match a with
    | ⟨0, _⟩ => rfl)
  rw [val_main_v20_apply, val_main_call1_v0_apply, val_main_call1_cst_apply, val_main_v19_apply, val_main_v16_apply,
    val_main_v18_apply, val_main_v17_apply, eb]
  refine congrArg (fun s => max (s + x5 (ix1 h)) (Ideal.ofBits .f32 0x00000000#32)) (Finset.sum_congr rfl fun g _ => ?_)
  rw [el, er, relu1_apply]

/-- The sixteen neighbours of an output row: inserting k on the reduced axis of (b, n, h) gives (b, n, k, h). -/
theorem lift_eq (hR : S4x8192x16x128.Reduces [2] S4x8192x128) (b : Fin 4) (n : Fin 8192) (h : Fin 128) (k : Fin 16) :
    hR.lift (ix3 b n h) k = ix4 b n k h := funext fun a => Fin.ext (by
  match a with
  | ⟨0, _⟩ => rfl
  | ⟨1, _⟩ => rfl
  | ⟨2, _⟩ => rfl
  | ⟨3, _⟩ => rfl)

/-- The maximum over the neighbours at (b, n, h): the fold of max from minus infinity over the rectified second layer. -/
theorem maxk_apply (x0 : FVec Ideal S4x8192x64 .f32) (x1 : IVec S4x8192x16 32) (x2 : FVec Ideal S192x128 .f32)
    (x3 : FVec Ideal S128 .f32) (x4 : FVec Ideal S128x128 .f32) (x5 : FVec Ideal S128 .f32)
    (b : Fin 4) (n : Fin 8192) (h : Fin 128) :
    val_main_v21 (F := Ideal) x0 x1 x2 x3 x4 x5 (ix3 b n h)
      = Finset.univ.fold max (Ideal.ofBits .f32 0xFF800000#32) fun k : Fin 16 =>
          val_main_v20 (F := Ideal) x0 x1 x2 x3 x4 x5 (ix4 b n k h) := by
  have hR : S4x8192x16x128.Reduces [2] S4x8192x128 := by decide
  unfold val_main_v21
  rw [Host.reduce_eq_fold_single FloatOps.maximumf _ _ _ hR]
  refine congrArg (Finset.univ.fold _ _) (funext fun k => ?_)
  exact congrArg (val_main_v20 (F := Ideal) x0 x1 x2 x3 x4 x5) (lift_eq hR b n h k)

/-- The reference's result at (b, n, o). -/
theorem ref_apply (x0 : FVec Ideal S4x8192x64 .f32) (x1 : IVec S4x8192x16 32) (x2 : FVec Ideal S192x128 .f32)
    (x3 : FVec Ideal S128 .f32) (x4 : FVec Ideal S128x128 .f32) (x5 : FVec Ideal S128 .f32) (x6 : FVec Ideal S128x128 .f32)
    (x7 : FVec Ideal S128 .f32) (b : Fin 4) (n : Fin 8192) (o : Fin 128) :
    val_main_v25 (F := Ideal) x0 x1 x2 x3 x4 x5 x6 x7 (ix3 b n o)
      = mlpTail (pre1Concat (fun c => x0 (ix3 b n c)) (fun k c => val_main_v6 (F := Ideal) x0 x1 (ix4 b n k c))
            (fun c g => x2 (ix2 c g)) (fun g => x3 (ix1 g)))
          (fun g h => x4 (ix2 g h)) (fun h => x5 (ix1 h)) (fun h o' => x6 (ix2 h o')) (fun o' => x7 (ix1 o')) o := by
  have el : ∀ h : Fin 128, lidx_main_v22 (ix3 b n o) h = ix3 b n h := fun h => funext fun a => Fin.ext (by
    match a with
    | ⟨0, _⟩ => rfl
    | ⟨1, _⟩ => rfl
    | ⟨2, _⟩ => rfl)
  have er : ∀ h : Fin 128, ridx_main_v22 (ix3 b n o) h = ix2 h o := fun h => funext fun a => Fin.ext (by
    match a with
    | ⟨0, _⟩ => rfl
    | ⟨1, _⟩ => rfl)
  have eb : idx_main_v23 (idx_main_v24 (ix3 b n o)) = ix1 o := funext fun a => Fin.ext (by
    match a with
    | ⟨0, _⟩ => rfl)
  rw [val_main_v25_apply, val_main_v22_apply, val_main_v24_apply, val_main_v23_apply, eb]
  unfold mlpTail
  refine congrArg (· + x7 (ix1 o)) (Finset.sum_congr rfl fun h _ => ?_)
  rw [el, er, maxk_apply]
  refine congrArg (fun F => Finset.univ.fold max (Ideal.ofBits .f32 0xFF800000#32) F * x6 (ix2 h o)) (funext fun k => ?_)
  rw [relu2_apply]

end Cert.KnnMlp.Ref

end
-- ==== Proof.KernelMatmuls.lean ====
/-
  The four matrix products of the kernel body, each read at one entry. Every one is a plain product of a matrix with
  rows p and a matrix with columns g over one contracted coordinate, accumulated into zero; over the extended reals its
  entry (p, g) is the finite sum of the products of row p's and column g's entries, with no rounding and no order.
-/
import proofs.«102421_j42872363548712_1_alg».proof.Proof.Gen.KernelIdeal
import Idealize.ShloMosaic.Lib.ValueIdx
import Idealize.ShloMosaic.PureOps.Ideal.Laws

noncomputable section

namespace Cert.KnnMlp.Kernel

open Idealize.ShloMosaic Idealize.ShloMosaic.ValueIdx Cert.KernelIdeal

/-! ### The feature rows of a block against the folded weights, 512 × 64 by 64 × 128 -/

theorem mmF_lhs0 (i : S512x128.Idx) (q : dot_S512x64_S64x128_S512x128_1_0_0_1_n_n.contr.Idx) : (dot_S512x64_S64x128_S512x128_1_0_0_1_n_n.lhsIdx i q 0).val = (i 0).val := by
  unfold DotDims.lhsIdx
  rw [dif_neg (show ¬(0 : Fin S512x64.rank) ∈ dot_S512x64_S64x128_S512x128_1_0_0_1_n_n.lhsBatch by decide), dif_pos (show (0 : Fin S512x64.rank) ∈ dot_S512x64_S64x128_S512x128_1_0_0_1_n_n.lhsNonContracting by decide)]
  rfl
theorem mmF_lhs1 (i : S512x128.Idx) (q : dot_S512x64_S64x128_S512x128_1_0_0_1_n_n.contr.Idx) : (dot_S512x64_S64x128_S512x128_1_0_0_1_n_n.lhsIdx i q 1).val = (q ⟨0, by decide⟩).val :=
  dot_S512x64_S64x128_S512x128_1_0_0_1_n_n.lhsIdx_val_of_single rfl i q
theorem mmF_rhs0 (i : S512x128.Idx) (q : dot_S512x64_S64x128_S512x128_1_0_0_1_n_n.contr.Idx) : (dot_S512x64_S64x128_S512x128_1_0_0_1_n_n.rhsIdx i q 0).val = (q ⟨0, by decide⟩).val :=
  dot_S512x64_S64x128_S512x128_1_0_0_1_n_n.rhsIdx_val_of_single rfl i q
theorem mmF_rhs1 (i : S512x128.Idx) (q : dot_S512x64_S64x128_S512x128_1_0_0_1_n_n.contr.Idx) : (dot_S512x64_S64x128_S512x128_1_0_0_1_n_n.rhsIdx i q 1).val = (i 1).val := by
  unfold DotDims.rhsIdx
  rw [dif_neg (show ¬(1 : Fin S64x128.rank) ∈ dot_S512x64_S64x128_S512x128_1_0_0_1_n_n.rhsBatch by decide), dif_pos (show (1 : Fin S64x128.rank) ∈ dot_S512x64_S64x128_S512x128_1_0_0_1_n_n.rhsNonContracting by decide)]
  rfl

/-- Entry (p, g) of this product into a zero accumulator: the sum over the contracted coordinate of row p of the left
    factor times column g of the right. -/
theorem mmF_apply (l : FVec Ideal S512x64 .bf16) (r : FVec Ideal S64x128 .bf16) (p : Fin 512) (g : Fin 128) :
    matmul dot_S512x64_S64x128_S512x128_1_0_0_1_n_n none l r (constant S512x128 .f32 0x00000000#32) (ix2 p g) = ∑ c : Fin 64, l (ix2 p c) * r (ix2 c g) := by
  simp only [matmul]
  rw [Ideal.matmul_constant_zero_apply, ← Equiv.sum_comp (contrEquiv1 dot_S512x64_S64x128_S512x128_1_0_0_1_n_n 64 rfl rfl).symm]
  refine Finset.sum_congr rfl fun c _ => ?_
  have hc := contrEquiv1_symm_val dot_S512x64_S64x128_S512x128_1_0_0_1_n_n 64 rfl rfl c
  have el : dot_S512x64_S64x128_S512x128_1_0_0_1_n_n.lhsIdx (ix2 p g) ((contrEquiv1 dot_S512x64_S64x128_S512x128_1_0_0_1_n_n 64 rfl rfl).symm c) = ix2 p c := funext fun a => Fin.ext (by
    match a with
    | ⟨0, _⟩ => exact mmF_lhs0 _ _
    | ⟨1, _⟩ => exact (mmF_lhs1 _ _).trans hc)
  have er : dot_S512x64_S64x128_S512x128_1_0_0_1_n_n.rhsIdx (ix2 p g) ((contrEquiv1 dot_S512x64_S64x128_S512x128_1_0_0_1_n_n 64 rfl rfl).symm c) = ix2 c g := funext fun a => Fin.ext (by
    match a with
    | ⟨0, _⟩ => exact (mmF_rhs0 _ _).trans hc
    | ⟨1, _⟩ => exact mmF_rhs1 _ _)
  rw [el, er]

/-! ### The neighbour rows of a block, flattened, against the folded weights, 8192 × 64 by 64 × 128 -/

theorem mmK_lhs0 (i : S8192x128.Idx) (q : dot_S8192x64_S64x128_S8192x128_1_0_0_1_n_n.contr.Idx) : (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem mmK_lhs1 (i : S8192x128.Idx) (q : dot_S8192x64_S64x128_S8192x128_1_0_0_1_n_n.contr.Idx) : (dot_S8192x64_S64x128_S8192x128_1_0_0_1_n_n.lhsIdx i q 1).val = (q ⟨0, by decide⟩).val :=
  dot_S8192x64_S64x128_S8192x128_1_0_0_1_n_n.lhsIdx_val_of_single rfl i q
theorem mmK_rhs0 (i : S8192x128.Idx) (q : dot_S8192x64_S64x128_S8192x128_1_0_0_1_n_n.contr.Idx) : (dot_S8192x64_S64x128_S8192x128_1_0_0_1_n_n.rhsIdx i q 0).val = (q ⟨0, by decide⟩).val :=
  dot_S8192x64_S64x128_S8192x128_1_0_0_1_n_n.rhsIdx_val_of_single rfl i q
theorem mmK_rhs1 (i : S8192x128.Idx) (q : dot_S8192x64_S64x128_S8192x128_1_0_0_1_n_n.contr.Idx) : (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- Entry (p, g) of this product into a zero accumulator: the sum over the contracted coordinate of row p of the left
    factor times column g of the right. -/
theorem mmK_apply (l : FVec Ideal S8192x64 .bf16) (r : FVec Ideal S64x128 .bf16) (p : Fin 8192) (g : Fin 128) :
    matmul dot_S8192x64_S64x128_S8192x128_1_0_0_1_n_n none l r (constant S8192x128 .f32 0x00000000#32) (ix2 p g) = ∑ c : Fin 64, l (ix2 p c) * r (ix2 c g) := by
  simp only [matmul]
  rw [Ideal.matmul_constant_zero_apply, ← Equiv.sum_comp (contrEquiv1 dot_S8192x64_S64x128_S8192x128_1_0_0_1_n_n 64 rfl rfl).symm]
  refine Finset.sum_congr rfl fun c _ => ?_
  have hc := contrEquiv1_symm_val dot_S8192x64_S64x128_S8192x128_1_0_0_1_n_n 64 rfl rfl c
  have el : dot_S8192x64_S64x128_S8192x128_1_0_0_1_n_n.lhsIdx (ix2 p g) ((contrEquiv1 dot_S8192x64_S64x128_S8192x128_1_0_0_1_n_n 64 rfl rfl).symm c) = ix2 p c := funext fun a => Fin.ext (by
    match a with
    | ⟨0, _⟩ => exact mmK_lhs0 _ _
    | ⟨1, _⟩ => exact (mmK_lhs1 _ _).trans hc)
  have er : dot_S8192x64_S64x128_S8192x128_1_0_0_1_n_n.rhsIdx (ix2 p g) ((contrEquiv1 dot_S8192x64_S64x128_S8192x128_1_0_0_1_n_n 64 rfl rfl).symm c) = ix2 c g := funext fun a => Fin.ext (by
    match a with
    | ⟨0, _⟩ => exact (mmK_rhs0 _ _).trans hc
    | ⟨1, _⟩ => exact mmK_rhs1 _ _)
  rw [el, er]

/-! ### The rectified first layer, flattened, against the second weights, 8192 × 128 by 128 × 128 -/

theorem mmH_lhs0 (i : S8192x128.Idx) (q : dot_S8192x128_S128x128_S8192x128_1_0_0_1_n_n.contr.Idx) : (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem mmH_lhs1 (i : S8192x128.Idx) (q : dot_S8192x128_S128x128_S8192x128_1_0_0_1_n_n.contr.Idx) : (dot_S8192x128_S128x128_S8192x128_1_0_0_1_n_n.lhsIdx i q 1).val = (q ⟨0, by decide⟩).val :=
  dot_S8192x128_S128x128_S8192x128_1_0_0_1_n_n.lhsIdx_val_of_single rfl i q
theorem mmH_rhs0 (i : S8192x128.Idx) (q : dot_S8192x128_S128x128_S8192x128_1_0_0_1_n_n.contr.Idx) : (dot_S8192x128_S128x128_S8192x128_1_0_0_1_n_n.rhsIdx i q 0).val = (q ⟨0, by decide⟩).val :=
  dot_S8192x128_S128x128_S8192x128_1_0_0_1_n_n.rhsIdx_val_of_single rfl i q
theorem mmH_rhs1 (i : S8192x128.Idx) (q : dot_S8192x128_S128x128_S8192x128_1_0_0_1_n_n.contr.Idx) : (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- Entry (p, g) of this product into a zero accumulator: the sum over the contracted coordinate of row p of the left
    factor times column g of the right. -/
theorem mmH_apply (l : FVec Ideal S8192x128 .bf16) (r : FVec Ideal S128x128 .bf16) (p : Fin 8192) (g : Fin 128) :
    matmul dot_S8192x128_S128x128_S8192x128_1_0_0_1_n_n none l r (constant S8192x128 .f32 0x00000000#32) (ix2 p g) = ∑ c : Fin 128, l (ix2 p c) * r (ix2 c g) := by
  simp only [matmul]
  rw [Ideal.matmul_constant_zero_apply, ← Equiv.sum_comp (contrEquiv1 dot_S8192x128_S128x128_S8192x128_1_0_0_1_n_n 128 rfl rfl).symm]
  refine Finset.sum_congr rfl fun c _ => ?_
  have hc := contrEquiv1_symm_val dot_S8192x128_S128x128_S8192x128_1_0_0_1_n_n 128 rfl rfl c
  have el : dot_S8192x128_S128x128_S8192x128_1_0_0_1_n_n.lhsIdx (ix2 p g) ((contrEquiv1 dot_S8192x128_S128x128_S8192x128_1_0_0_1_n_n 128 rfl rfl).symm c) = ix2 p c := funext fun a => Fin.ext (by
    match a with
    | ⟨0, _⟩ => exact mmH_lhs0 _ _
    | ⟨1, _⟩ => exact (mmH_lhs1 _ _).trans hc)
  have er : dot_S8192x128_S128x128_S8192x128_1_0_0_1_n_n.rhsIdx (ix2 p g) ((contrEquiv1 dot_S8192x128_S128x128_S8192x128_1_0_0_1_n_n 128 rfl rfl).symm c) = ix2 c g := funext fun a => Fin.ext (by
    match a with
    | ⟨0, _⟩ => exact (mmH_rhs0 _ _).trans hc
    | ⟨1, _⟩ => exact mmH_rhs1 _ _)
  rw [el, er]

/-! ### The pooled rows against the third weights, 512 × 128 by 128 × 128 -/

theorem mmO_lhs0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem mmO_lhs1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem mmO_rhs0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem mmO_rhs1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- Entry (p, g) of this product into a zero accumulator: the sum over the contracted coordinate of row p of the left
    factor times column g of the right. -/
theorem mmO_apply (l : FVec Ideal S512x128 .bf16) (r : FVec Ideal S128x128 .bf16) (p : Fin 512) (g : Fin 128) :
    matmul dot_S512x128_S128x128_S512x128_1_0_0_1_n_n none l r (constant S512x128 .f32 0x00000000#32) (ix2 p g) = ∑ c : Fin 128, l (ix2 p c) * r (ix2 c g) := by
  simp only [matmul]
  rw [Ideal.matmul_constant_zero_apply, ← Equiv.sum_comp (contrEquiv1 dot_S512x128_S128x128_S512x128_1_0_0_1_n_n 128 rfl rfl).symm]
  refine Finset.sum_congr rfl fun c _ => ?_
  have hc := contrEquiv1_symm_val dot_S512x128_S128x128_S512x128_1_0_0_1_n_n 128 rfl rfl c
  have el : dot_S512x128_S128x128_S512x128_1_0_0_1_n_n.lhsIdx (ix2 p g) ((contrEquiv1 dot_S512x128_S128x128_S512x128_1_0_0_1_n_n 128 rfl rfl).symm c) = ix2 p c := funext fun a => Fin.ext (by
    match a with
    | ⟨0, _⟩ => exact mmO_lhs0 _ _
    | ⟨1, _⟩ => exact (mmO_lhs1 _ _).trans hc)
  have er : dot_S512x128_S128x128_S512x128_1_0_0_1_n_n.rhsIdx (ix2 p g) ((contrEquiv1 dot_S512x128_S128x128_S512x128_1_0_0_1_n_n 128 rfl rfl).symm c) = ix2 c g := funext fun a => Fin.ext (by
    match a with
    | ⟨0, _⟩ => exact (mmO_rhs0 _ _).trans hc
    | ⟨1, _⟩ => exact mmO_rhs1 _ _)
  rw [el, er]

end Cert.KnnMlp.Kernel

end
-- ==== Proof.KernelPayload.lean ====
/-
  The kernel body's arithmetic, read at one entry of its output block.

  A block holds 512 points. Its inputs are the points' feature rows x0 (1 × 512 × 64), their sixteen neighbour rows x1
  (1 × 512 × 16 × 64), the two folded weight matrices x2 and x3 (64 × 128 each), the first bias x4, the second weights
  and bias x5, x6 and the third weights and bias x7, x8 (a bias is a 1 × 128 row). The body multiplies the feature rows
  by x2 once per point, flattens the neighbour rows to 8192 rows (row r * 16 + k is neighbour k of point r) and
  multiplies them by x3, adds the two (the per-point term repeated over the neighbours) and the bias, rectifies,
  multiplies the flattened result by x5, adds x6, rectifies, takes the maximum over each point's sixteen rows starting
  from minus infinity, multiplies by x7 and adds x8. Changes of float format are the identity on the extended reals.
  Entry (0, r, o) of what it stores is therefore the shared tail of the specification at output unit o, applied to
  the first layer  (sum_c x0[0,r,c] * x2[c,g] + sum_c x1[0,r,k,c] * x3[c,g]) + x4[0,g].
-/
import proofs.«102421_j42872363548712_1_alg».proof.Proof.Gen.KernelIdeal.Skeleton
import proofs.«102421_j42872363548712_1_alg».proof.Proof.KernelMatmuls
import proofs.«102421_j42872363548712_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KnnMlp.Kernel

open Idealize.ShloMosaic Idealize.ShloMosaic.ValueIdx Cert.KernelIdeal Cert.KernelIdeal.Gen Cert.KnnMlp

/-! ## Flattening the neighbours: point r, neighbour k is row r * 16 + k -/

/-- Row `r * 16 + k` of a flattened block. -/
def flat (r : Fin 512) (k : Fin 16) : Fin 8192 := ⟨r.val * 16 + k.val, by have := r.isLt; have := k.isLt; omega⟩

/-- A 512 × 16 × n array flattened to 8192 × n, read at row `r * 16 + k`. -/
theorem cast_rows_to_flat {n : ℕ} {α : Type} (x : (⟨3, ![512, 16, n]⟩ : Shape).Idx → α)
    (h : (⟨3, ![512, 16, n]⟩ : Shape).ShapeCasts ⟨2, ![8192, n]⟩) (r : Fin 512) (k : Fin 16) (c : Fin n) :
    shapeCast ⟨2, ![8192, n]⟩ x h (ix2 (flat r k) c) = x (ix3 r k c) :=
  shapeCast_apply x h _ _ (by
    rw [Shape.rowMajor_val_three, Shape.rowMajor_val_two]
    rfl)

/-- An 8192 × n array viewed as 512 × 16 × n, read at point `r`, neighbour `k`. -/
theorem cast_flat_to_rows {n : ℕ} {α : Type} (y : (⟨2, ![8192, n]⟩ : Shape).Idx → α)
    (h : (⟨2, ![8192, n]⟩ : Shape).ShapeCasts ⟨3, ![512, 16, n]⟩) (r : Fin 512) (k : Fin 16) (c : Fin n) :
    shapeCast ⟨3, ![512, 16, n]⟩ y h (ix3 r k c) = y (ix2 (flat r k) c) :=
  shapeCast_apply y h _ _ (by
    rw [Shape.rowMajor_val_two, Shape.rowMajor_val_three]
    rfl)

/-! ## The two broadcasts over the neighbours -/

/-- A per-point row repeated over the sixteen neighbours: 512 × 128 viewed 512 × 1 × 128, broadcast to 512 × 16 × 128. -/
theorem bcast_point (v : FVec Ideal S512x128 .f32) (r : Fin 512) (k : Fin 16) (g : Fin 128) :
    broadcastTo S512x16x128 (shapeCast S512x1x128 v shapeCasts_S512x128_S512x1x128) broadcasts_S512x1x128_S512x16x128 (ix3 r k g)
      = v (ix2 r g) := by
  refine (broadcastTo_apply _ broadcasts_S512x1x128_S512x16x128 (ix3 r k g) (ix3 r (0 : Fin 1) g) fun a => ?_).trans ?_
  · match a with
    | ⟨0, _⟩ => rfl
    | ⟨1, _⟩ => rfl
    | ⟨2, _⟩ => rfl
  · exact shapeCast_apply v shapeCasts_S512x128_S512x1x128 _ _ (by
      rw [Shape.rowMajor_val_two, Shape.rowMajor_val_three]
      show r.val * 128 + g.val = (r.val * 1 + 0) * 128 + g.val
      omega)

/-- A bias row repeated over points and neighbours: 1 × 128 viewed 1 × 1 × 128, broadcast to 512 × 16 × 128. -/
theorem bcast_bias (v : FVec Ideal S1x128 .f32) (r : Fin 512) (k : Fin 16) (g : Fin 128) :
    broadcastTo S512x16x128 (shapeCast S1x1x128 v shapeCasts_S1x128_S1x1x128) broadcasts_S1x1x128_S512x16x128 (ix3 r k g)
      = v (ix2 (0 : Fin 1) g) := by
  refine (broadcastTo_apply _ broadcasts_S1x1x128_S512x16x128 (ix3 r k g) (ix3 (0 : Fin 1) (0 : Fin 1) g) fun a => ?_).trans ?_
  · match a with
    | ⟨0, _⟩ => rfl
    | ⟨1, _⟩ => rfl
    | ⟨2, _⟩ => rfl
  · exact shapeCast_ab_1ab_apply v shapeCasts_S1x128_S1x1x128 (0 : Fin 1) (0 : Fin 1) g

/-! ## The stages -/

/-- The feature rows against the first folded weights. -/
def sF (x0 : FVec Ideal S1x512x64 .bf16) (x2 : FVec Ideal S64x128 .bf16) : FVec Ideal S512x128 .f32 :=
  matmul dot_S512x64_S64x128_S512x128_1_0_0_1_n_n none (shapeCast S512x64 x0 shapeCasts_S1x512x64_S512x64)
    (shapeCast S64x128 x2 shapeCasts_S64x128_S64x128) (constant (F := Ideal) S512x128 .f32 0x00000000#32)

theorem sF_apply (x0 : FVec Ideal S1x512x64 .bf16) (x2 : FVec Ideal S64x128 .bf16) (r : Fin 512) (g : Fin 128) :
    sF x0 x2 (ix2 r g) = ∑ c : Fin 64, x0 (ix3 (0 : Fin 1) r c) * x2 (ix2 c g) := by
  unfold sF
  rw [mmF_apply, shapeCast_self]
  exact Finset.sum_congr rfl fun c _ => by rw [shapeCast_1ab_ab_apply]

/-- The flattened neighbour rows against the second folded weights, viewed per point and neighbour again. -/
def sK (x1 : FVec Ideal S1x512x16x64 .bf16) (x3 : FVec Ideal S64x128 .bf16) : FVec Ideal S512x16x128 .f32 :=
  shapeCast S512x16x128
    (matmul dot_S8192x64_S64x128_S8192x128_1_0_0_1_n_n none
      (shapeCast S8192x64 (shapeCast S512x16x64 x1 shapeCasts_S1x512x16x64_S512x16x64) shapeCasts_S512x16x64_S8192x64)
      (shapeCast S64x128 x3 shapeCasts_S64x128_S64x128) (constant (F := Ideal) S8192x128 .f32 0x00000000#32))
    shapeCasts_S8192x128_S512x16x128

theorem sK_apply (x1 : FVec Ideal S1x512x16x64 .bf16) (x3 : FVec Ideal S64x128 .bf16) (r : Fin 512) (k : Fin 16) (g : Fin 128) :
    sK x1 x3 (ix3 r k g) = ∑ c : Fin 64, x1 (ix4 (0 : Fin 1) r k c) * x3 (ix2 c g) := by
  unfold sK
  rw [cast_flat_to_rows, mmK_apply, shapeCast_self]
  exact Finset.sum_congr rfl fun c _ => by rw [cast_rows_to_flat, shapeCast_1abc_abc_apply]

/-- The first layer: the two products added, the per-point one repeated over the neighbours, the bias, the rectifier. -/
def sH1 (tf : FVec Ideal S512x128 .f32) (tk : FVec Ideal S512x16x128 .f32) (x4 : FVec Ideal S1x128 .f32) :
    FVec Ideal S512x16x128 .f32 :=
  maximumf
    (addf
      (addf (broadcastTo S512x16x128 (shapeCast S512x1x128 tf shapeCasts_S512x128_S512x1x128) broadcasts_S512x1x128_S512x16x128) tk)
      (broadcastTo S512x16x128 (shapeCast S1x1x128 (shapeCast S1x128 x4 shapeCasts_S1x128_S1x128) shapeCasts_S1x128_S1x1x128)
        broadcasts_S1x1x128_S512x16x128))
    (broadcast S512x16x128 (Scalar.ofBits (F := Ideal) .f32 0x00000000#32))

theorem sH1_apply (tf : FVec Ideal S512x128 .f32) (tk : FVec Ideal S512x16x128 .f32) (x4 : FVec Ideal S1x128 .f32)
    (r : Fin 512) (k : Fin 16) (g : Fin 128) :
    sH1 tf tk x4 (ix3 r k g)
      = max ((tf (ix2 r g) + tk (ix3 r k g)) + x4 (ix2 (0 : Fin 1) g)) (Ideal.ofBits .f32 0x00000000#32) := by
  unfold sH1
  rw [maximumf_apply, addf_apply, addf_apply, bcast_point, shapeCast_self, bcast_bias]
  rfl

/-- The second product: the rectified first layer, flattened, against the second weights. -/
def sL2 (h1 : FVec Ideal S512x16x128 .f32) (x5 : FVec Ideal S128x128 .bf16) : FVec Ideal S8192x128 .f32 :=
  matmul dot_S8192x128_S128x128_S8192x128_1_0_0_1_n_n none
    (shapeCast S8192x128 (truncf .bf16 h1 bitsLt_bf16_f32) shapeCasts_S512x16x128_S8192x128)
    (shapeCast S128x128 x5 shapeCasts_S128x128_S128x128) (constant (F := Ideal) S8192x128 .f32 0x00000000#32)

theorem sL2_apply (h1 : FVec Ideal S512x16x128 .f32) (x5 : FVec Ideal S128x128 .bf16) (r : Fin 512) (k : Fin 16) (h : Fin 128) :
    sL2 h1 x5 (ix2 (flat r k) h) = ∑ g : Fin 128, h1 (ix3 r k g) * x5 (ix2 g h) := by
  unfold sL2
  rw [mmH_apply, shapeCast_self]
  exact Finset.sum_congr rfl fun g _ => by rw [cast_rows_to_flat, truncf_apply]

/-- Before pooling: the second bias, the rectifier, and the rows viewed per point and neighbour again. -/
def sPre (v32 : FVec Ideal S8192x128 .f32) (b2 : FVec Ideal S1x128 .f32) : FVec Ideal S512x16x128 .f32 :=
  shapeCast S512x16x128
    (maximumf (addf v32 (broadcastTo S8192x128 b2 broadcasts_S1x128_S8192x128))
      (broadcast S8192x128 (Scalar.ofBits (F := Ideal) .f32 0x00000000#32)))
    shapeCasts_S8192x128_S512x16x128

theorem sPre_apply (v32 : FVec Ideal S8192x128 .f32) (b2 : FVec Ideal S1x128 .f32) (r : Fin 512) (k : Fin 16) (h : Fin 128) :
    sPre v32 b2 (ix3 r k h)
      = max (v32 (ix2 (flat r k) h) + b2 (ix2 (0 : Fin 1) h)) (Ideal.ofBits .f32 0x00000000#32) := by
  unfold sPre
  rw [cast_flat_to_rows, maximumf_apply, addf_apply, broadcastTo_1b_ab_apply]
  rfl

/-- Inserting neighbour `k` into the pooled index (r, h) gives (r, k, h). -/
theorem lift_eq (r : Fin 512) (k : Fin 16) (h : Fin 128) :
    reduces_S512x16x128_S512x128.lift (ix2 r h) k = ix3 r k h := funext fun a => Fin.ext (by
  match a with
  | ⟨0, _⟩ => rfl
  | ⟨1, _⟩ => rfl
  | ⟨2, _⟩ => rfl)

/-- The maximum over the neighbour axis, from the word of minus infinity, is the fold of `max` over the sixteen neighbours. -/
theorem pool_fold (src : FVec Ideal S512x16x128 .f32) (r : Fin 512) (h : Fin 128) :
    multiReduction .maximumf [1] S512x128 src 0xFF800000#32 reduces_S512x16x128_S512x128 (.inl rfl) rfl (ix2 r h)
      = Finset.univ.fold max (Ideal.ofBits .f32 0xFF800000#32) (fun k : Fin 16 => src (ix3 r k h)) :=
  (Ideal.multiReduction_maximumf_single src 0xFF800000#32 reduces_S512x16x128_S512x128 (.inl rfl) rfl (ix2 r h)).trans
    (congrArg (Finset.univ.fold max (Ideal.ofBits .f32 0xFF800000#32)) (funext fun k => congrArg src (lift_eq r k h)))

/-- The pooled maximum over each point's sixteen rows, from minus infinity. -/
def sPool (v32 : FVec Ideal S8192x128 .f32) (b2 : FVec Ideal S1x128 .f32) : FVec Ideal S512x128 .f32 :=
  multiReduction .maximumf [1] S512x128 (sPre v32 b2) 0xFF800000#32 reduces_S512x16x128_S512x128 (.inl rfl) rfl

theorem sPool_apply (v32 : FVec Ideal S8192x128 .f32) (b2 : FVec Ideal S1x128 .f32) (r : Fin 512) (h : Fin 128) :
    sPool v32 b2 (ix2 r h)
      = Finset.univ.fold max (Ideal.ofBits .f32 0xFF800000#32) fun k : Fin 16 =>
          max (v32 (ix2 (flat r k) h) + b2 (ix2 (0 : Fin 1) h)) (Ideal.ofBits .f32 0x00000000#32) :=
  (pool_fold (sPre v32 b2) r h).trans
    (congrArg (Finset.univ.fold max (Ideal.ofBits .f32 0xFF800000#32)) (funext fun k => sPre_apply v32 b2 r k h))

/-- The output: the pooled rows against the third weights, the bias, stored as a 1 × 512 × 128 block. -/
def sOut (mx : FVec Ideal S512x128 .f32) (w3 : FVec Ideal S128x128 .bf16) (b3 : FVec Ideal S1x128 .f32) :
    FVec Ideal S1x512x128 .f32 :=
  shapeCast S1x512x128
    (addf (matmul dot_S512x128_S128x128_S512x128_1_0_0_1_n_n none (truncf .bf16 mx bitsLt_bf16_f32) w3
        (constant (F := Ideal) S512x128 .f32 0x00000000#32))
      (broadcastTo S512x128 b3 broadcasts_S1x128_S512x128))
    shapeCasts_S512x128_S1x512x128

theorem sOut_apply (mx : FVec Ideal S512x128 .f32) (w3 : FVec Ideal S128x128 .bf16) (b3 : FVec Ideal S1x128 .f32)
    (r : Fin 512) (o : Fin 128) :
    sOut mx w3 b3 (ix3 (0 : Fin 1) r o) = (∑ h : Fin 128, mx (ix2 r h) * w3 (ix2 h o)) + b3 (ix2 (0 : Fin 1) o) := by
  unfold sOut
  rw [shapeCast_ab_1ab_apply, addf_apply, mmO_apply, broadcastTo_1b_ab_apply]
  rfl

/-! ## The printed payloads are these stages -/

theorem pay5_eq (x0 : FVec Ideal S1x512x64 .bf16) (x1 : FVec Ideal S1x512x16x64 .bf16) (x2 x3 : FVec Ideal S64x128 .bf16)
    (x4 : FVec Ideal S1x128 .f32) (x5 : FVec Ideal S128x128 .bf16) :
    k0_pay5 (F := Ideal) x0 x1 x2 x3 x4 x5 = sL2 (sH1 (sF x0 x2) (sK x1 x3) x4) x5 := rfl

theorem pay1_eq (v13 : FVec Ideal S1x128 .f32) (v15 : FVec Ideal S128x128 .bf16) (v17 : FVec Ideal S1x128 .f32)
    (v32 : FVec Ideal S8192x128 .f32) : k0_pay1 (F := Ideal) v13 v15 v17 v32 = sOut (sPool v32 v13) v15 v17 := rfl

/-- ENTRY (0, r, o) OF THE STORED BLOCK: the specification's tail over the folded first layer of point r. -/
theorem payload_apply (x0 : FVec Ideal S1x512x64 .bf16) (x1 : FVec Ideal S1x512x16x64 .bf16) (x2 x3 : FVec Ideal S64x128 .bf16)
    (x4 : FVec Ideal S1x128 .f32) (x5 : FVec Ideal S128x128 .bf16) (x6 : FVec Ideal S1x128 .f32)
    (x7 : FVec Ideal S128x128 .bf16) (x8 : FVec Ideal S1x128 .f32) (r : Fin 512) (o : Fin 128) :
    k0_pay1 (F := Ideal) (k0_pay2 x6) (k0_pay3 x7) (k0_pay4 x8) (k0_pay5 x0 x1 x2 x3 x4 x5) (ix3 (0 : Fin 1) r o)
      = mlpTail
          (fun k g => ((∑ c : Fin 64, x0 (ix3 (0 : Fin 1) r c) * x2 (ix2 c g)) + ∑ c : Fin 64, x1 (ix4 (0 : Fin 1) r k c) * x3 (ix2 c g))
            + x4 (ix2 (0 : Fin 1) g))
          (fun g h => x5 (ix2 g h)) (fun h => x6 (ix2 (0 : Fin 1) h)) (fun h o' => x7 (ix2 h o')) (fun o' => x8 (ix2 (0 : Fin 1) o')) o := by
  have e2 : k0_pay2 (F := Ideal) x6 = x6 := shapeCast_self x6 _
  have e3 : k0_pay3 (F := Ideal) x7 = x7 := shapeCast_self x7 _
  have e4 : k0_pay4 (F := Ideal) x8 = x8 := shapeCast_self x8 _
  rw [e2, e3, e4, pay1_eq, pay5_eq, sOut_apply]
  unfold mlpTail
  simp only [sPool_apply, sL2_apply, sH1_apply, sF_apply, sK_apply]

end Cert.KnnMlp.Kernel

end
-- ==== Proof.KernelValue.lean ====
/-
  From the blocks to the whole output array.

  The grid has 4 × 16 points; point (b, j) reads the feature rows and the neighbour rows of points 512 j … 512 j + 511
  of cloud b, reads every weight and bias whole, and writes rows 512 j … 512 j + 511 of cloud b of the output. So what
  point t writes back is block t of ONE function `G` of the arrays the region finds: at (b, n, o) the specification's
  tail over the folded first layer of point (b, n). Every index of the output lies in exactly one block, the one of
  point (b, n / 512), so after the run the output array is `G`.
-/
import proofs.«102421_j42872363548712_1_alg».proof.Proof.Gen.KernelIdeal.Value
import proofs.«102421_j42872363548712_1_alg».proof.Proof.KernelPayload
import proofs.«102421_j42872363548712_1_alg».proof.Proof.MlpSpec
import Idealize.ShloMosaic.Lib.ValueIdx
import Idealize.ShloMosaic.Lib.Pipeline.Value

set_option maxRecDepth 16384

noncomputable section

namespace Cert.KnnMlp.KernelValue

open Cert.KernelIdeal Cert.KernelIdeal.Gen Idealize.ShloMosaic Idealize.ShloMosaic.TcCoe Idealize.SL.Sem
open Idealize.ShloMosaic.ValueIdx Cert.KnnMlp Cert.KnnMlp.Kernel
open Idealize.ShloMosaic.Pipeline (Dat)

variable (m : (ℓ : Loc nD τ sig) → Buf (Elt Ideal) ℓ) (ρ : Dev nD → PrngReg)

/-! ## The arrays the region finds, each at its literal type -/

/-- The features. -/
abbrev aF (c : Dev nD) : FVec Ideal S4x8192x64 .bf16 := V m c main_v7
/-- The gathered neighbour rows. -/
abbrev aK (c : Dev nD) : FVec Ideal S4x8192x16x64 .bf16 := V m c main_v8
/-- The folded weights the features meet. -/
abbrev aWf (c : Dev nD) : FVec Ideal S64x128 .bf16 := V m c main_v12
/-- The folded weights the neighbour rows meet. -/
abbrev aWk (c : Dev nD) : FVec Ideal S64x128 .bf16 := V m c main_v16
/-- The first bias, as a row. -/
abbrev aB1 (c : Dev nD) : FVec Ideal S1x128 .f32 := V m c main_v19
/-- The second weights. -/
abbrev aW2 (c : Dev nD) : FVec Ideal S128x128 .bf16 := V m c main_v17
/-- The second bias, as a row. -/
abbrev aB2 (c : Dev nD) : FVec Ideal S1x128 .f32 := V m c main_v20
/-- The third weights. -/
abbrev aW3 (c : Dev nD) : FVec Ideal S128x128 .bf16 := V m c main_v18
/-- The third bias, as a row. -/
abbrev aB3 (c : Dev nD) : FVec Ideal S1x128 .f32 := V m c main_v21

/-- The output at cloud `b`, point `n`, unit `o`, from those arrays. -/
def Gat (c : Dev nD) (b : Fin 4) (n : Fin 8192) (o : Fin 128) : EReal :=
  mlpTail
    (fun k g => ((∑ c' : Fin 64, aF m c (ix3 b n c') * aWf m c (ix2 c' g)) + ∑ c' : Fin 64, aK m c (ix4 b n k c') * aWk m c (ix2 c' g))
      + aB1 m c (ix2 (0 : Fin 1) g))
    (fun g h => aW2 m c (ix2 g h)) (fun h => aB2 m c (ix2 (0 : Fin 1) h)) (fun h o' => aW3 m c (ix2 h o'))
    (fun o' => aB3 m c (ix2 (0 : Fin 1) o')) o

/-- The output array as one function of the arrays the region finds. -/
def G (c : Dev nD) : S4x8192x128.Idx → Elt Ideal .f32 := fun i => Gat m c (i 0) (i 1) (i 2)

/-! ## The index maps, decided once over the grid -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The feature and neighbour windows move with the output window on the cloud and point axes and stay at block 0 on the
    others; the weights' and biases' windows never move; the output's block indices stay in the 4 × 16 box. -/
theorem idx_facts : ∀ t : Fin cfg0.N,
    win0_0.index t (0 : Fin 3) = win0_9.index t (0 : Fin 3) ∧ win0_0.index t (1 : Fin 3) = win0_9.index t (1 : Fin 3)
    ∧ win0_0.index t (2 : Fin 3) = 0
    ∧ win0_1.index t (0 : Fin 4) = win0_9.index t (0 : Fin 3) ∧ win0_1.index t (1 : Fin 4) = win0_9.index t (1 : Fin 3)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (2 : Fin 3) = 0 ∧ win0_9.index t (0 : Fin 3) < 4 ∧ win0_9.index t (1 : Fin 3) < 16 :=
  (by decide +kernel : ∀ t : Fin grid0.N, _)

/-- Every block of the 4 × 16 box is some point's. -/
theorem idx_onto : ∀ (q0 : Fin 4) (q1 : Fin 16), ∃ t : Fin cfg0.N, win0_9.index t = ![q0.val, q1.val, 0] :=
  (by decide +kernel : ∀ (q0 : Fin 4) (q1 : Fin 16), ∃ t : Fin grid0.N, win0_9.index t = ![q0.val, q1.val, 0])

/-! ## What a point writes back -/

set_option maxHeartbeats 2000000 in
/-- WHAT POINT `t` WRITES BACK is block `t` of `G`. -/
theorem flushed9_eq (c : Dev nD) (t : Fin cfg0.N) :
    (dats m 0 c).flushed 9 t = ((cfg0.win 9).blk t).view.read (Elt Ideal) (G m c) := by
  rw [Cert.KernelIdeal.Value.flushed9]
  unfold out0_9
  rw [View.canon_unit_zero hz3]
  simp only [View.ld_unit_zero (S := S1x512x64) hz3, View.ld_unit_zero (S := S1x512x16x64) hz4, View.ld_unit_zero (S := S64x128) hz2,
    View.ld_unit_zero (S := S1x128) hz2, View.ld_unit_zero (S := S128x128) hz2]
  obtain ⟨e00, e01, e02, e10, e11, e12, e13, e20, e21, e30, e31, e40, e41, e50, e51, e60, e61, e70, e71, e80, e81, e92, hb, hn⟩ := idx_facts t
  funext j
  obtain ⟨u, r, o, rfl⟩ : ∃ (u : Fin 1) (r : Fin 512) (o : Fin 128), j = ix3 u r o := ⟨j 0, j 1, j 2, eq_ix3 j⟩
  obtain rfl : u = 0 := Subsingleton.elim _ _
  have hr := r.isLt
  have ho := o.isLt
  -- the array index of entry (0, r, o) of the point's block
  have hi : ((cfg0.win 9).blk t).view.emb (ix3 (0 : Fin 1) r o)
      = ix3 (⟨win0_9.index t (0 : Fin 3), hb⟩ : Fin 4) (⟨win0_9.index t (1 : Fin 3) * 512 + r.val, by omega⟩ : Fin 8192) o := by
    funext a; apply Fin.ext
    match a with
    | ⟨0, _⟩ => show win0_9.index t (0 : Fin 3) * 1 + 1 * 0 = win0_9.index t (0 : Fin 3); omega
    | ⟨1, _⟩ => show win0_9.index t (1 : Fin 3) * 512 + 1 * r.val = win0_9.index t (1 : Fin 3) * 512 + r.val; omega
    | ⟨2, _⟩ => show win0_9.index t (2 : Fin 3) * 128 + 1 * o.val = o.val; omega
  -- each input block, read where the output's rectangle says
  have h0 : ∀ c' : Fin 64, iblk m c 0 t (ix3 (0 : Fin 1) r c')
      = aF m c (ix3 (⟨win0_9.index t (0 : Fin 3), hb⟩ : Fin 4) (⟨win0_9.index t (1 : Fin 3) * 512 + r.val, by omega⟩ : Fin 8192) c') := fun c' => by
    show V m c main_v7 (((cfg0.win 0).blk t).view.emb (ix3 (0 : Fin 1) r c')) = V m c main_v7 _
    refine congrArg _ (funext fun a => Fin.ext ?_)
    match a with
    | ⟨0, _⟩ => show win0_0.index t (0 : Fin 3) * 1 + 1 * 0 = win0_9.index t (0 : Fin 3); omega
    | ⟨1, _⟩ => show win0_0.index t (1 : Fin 3) * 512 + 1 * r.val = win0_9.index t (1 : Fin 3) * 512 + r.val; omega
    | ⟨2, _⟩ => show win0_0.index t (2 : Fin 3) * 64 + 1 * c'.val = c'.val; omega
  have h1 : ∀ (k : Fin 16) (c' : Fin 64), iblk m c 1 t (ix4 (0 : Fin 1) r k c')
      = aK m c (ix4 (⟨win0_9.index t (0 : Fin 3), hb⟩ : Fin 4) (⟨win0_9.index t (1 : Fin 3) * 512 + r.val, by omega⟩ : Fin 8192) k c') := fun k c' => by
    show V m c main_v8 (((cfg0.win 1).blk t).view.emb (ix4 (0 : Fin 1) r k c')) = V m c main_v8 _
    refine congrArg _ (funext fun a => Fin.ext ?_)
    match a with
    | ⟨0, _⟩ => show win0_1.index t (0 : Fin 4) * 1 + 1 * 0 = win0_9.index t (0 : Fin 3); omega
    | ⟨1, _⟩ => show win0_1.index t (1 : Fin 4) * 512 + 1 * r.val = win0_9.index t (1 : Fin 3) * 512 + r.val; omega
    | ⟨2, _⟩ => show win0_1.index t (2 : Fin 4) * 16 + 1 * k.val = k.val; omega
    | ⟨3, _⟩ => show win0_1.index t (3 : Fin 4) * 64 + 1 * c'.val = c'.val; omega
  have h2 : ∀ (p : Fin 64) (q : Fin 128), iblk m c 2 t (ix2 p q) = aWf m c (ix2 p q) := fun p q => by
    show V m c main_v12 (((cfg0.win 2).blk t).view.emb (ix2 p q)) = V m c main_v12 (ix2 p q)
    refine congrArg _ (funext fun a => Fin.ext ?_)
    match a with
    | ⟨0, _⟩ => show win0_2.index t (0 : Fin 2) * 64 + 1 * p.val = p.val; omega
    | ⟨1, _⟩ => show win0_2.index t (1 : Fin 2) * 128 + 1 * q.val = q.val; omega
  have h3 : ∀ (p : Fin 64) (q : Fin 128), iblk m c 3 t (ix2 p q) = aWk m c (ix2 p q) := fun p q => by
    show V m c main_v16 (((cfg0.win 3).blk t).view.emb (ix2 p q)) = V m c main_v16 (ix2 p q)
    refine congrArg _ (funext fun a => Fin.ext ?_)
    match a with
    | ⟨0, _⟩ => show win0_3.index t (0 : Fin 2) * 64 + 1 * p.val = p.val; omega
    | ⟨1, _⟩ => show win0_3.index t (1 : Fin 2) * 128 + 1 * q.val = q.val; omega
  have h4 : ∀ (p : Fin 1) (q : Fin 128), iblk m c 4 t (ix2 p q) = aB1 m c (ix2 p q) := fun p q => by
    show V m c main_v19 (((cfg0.win 4).blk t).view.emb (ix2 p q)) = V m c main_v19 (ix2 p q)
    refine congrArg _ (funext fun a => Fin.ext ?_)
    match a with
    | ⟨0, _⟩ => show win0_4.index t (0 : Fin 2) * 1 + 1 * p.val = p.val; omega
    | ⟨1, _⟩ => show win0_4.index t (1 : Fin 2) * 128 + 1 * q.val = q.val; omega
  have h5 : ∀ (p : Fin 128) (q : Fin 128), iblk m c 5 t (ix2 p q) = aW2 m c (ix2 p q) := fun p q => by
    show V m c main_v17 (((cfg0.win 5).blk t).view.emb (ix2 p q)) = V m c main_v17 (ix2 p q)
    refine congrArg _ (funext fun a => Fin.ext ?_)
    match a with
    | ⟨0, _⟩ => show win0_5.index t (0 : Fin 2) * 128 + 1 * p.val = p.val; omega
    | ⟨1, _⟩ => show win0_5.index t (1 : Fin 2) * 128 + 1 * q.val = q.val; omega
  have h6 : ∀ (p : Fin 1) (q : Fin 128), iblk m c 6 t (ix2 p q) = aB2 m c (ix2 p q) := fun p q => by
    show V m c main_v20 (((cfg0.win 6).blk t).view.emb (ix2 p q)) = V m c main_v20 (ix2 p q)
    refine congrArg _ (funext fun a => Fin.ext ?_)
    match a with
    | ⟨0, _⟩ => show win0_6.index t (0 : Fin 2) * 1 + 1 * p.val = p.val; omega
    | ⟨1, _⟩ => show win0_6.index t (1 : Fin 2) * 128 + 1 * q.val = q.val; omega
  have h7 : ∀ (p : Fin 128) (q : Fin 128), iblk m c 7 t (ix2 p q) = aW3 m c (ix2 p q) := fun p q => by
    show V m c main_v18 (((cfg0.win 7).blk t).view.emb (ix2 p q)) = V m c main_v18 (ix2 p q)
    refine congrArg _ (funext fun a => Fin.ext ?_)
    match a with
    | ⟨0, _⟩ => show win0_7.index t (0 : Fin 2) * 128 + 1 * p.val = p.val; omega
    | ⟨1, _⟩ => show win0_7.index t (1 : Fin 2) * 128 + 1 * q.val = q.val; omega
  have h8 : ∀ (p : Fin 1) (q : Fin 128), iblk m c 8 t (ix2 p q) = aB3 m c (ix2 p q) := fun p q => by
    show V m c main_v21 (((cfg0.win 8).blk t).view.emb (ix2 p q)) = V m c main_v21 (ix2 p q)
    refine congrArg _ (funext fun a => Fin.ext ?_)
    match a with
    | ⟨0, _⟩ => show win0_8.index t (0 : Fin 2) * 1 + 1 * p.val = p.val; omega
    | ⟨1, _⟩ => show win0_8.index t (1 : Fin 2) * 128 + 1 * q.val = q.val; omega
  show k0_pay1 (F := Ideal) (k0_pay2 (iblk m c 6 t)) (k0_pay3 (iblk m c 7 t)) (k0_pay4 (iblk m c 8 t))
      (k0_pay5 (iblk m c 0 t) (iblk m c 1 t) (iblk m c 2 t) (iblk m c 3 t) (iblk m c 4 t) (iblk m c 5 t)) (ix3 (0 : Fin 1) r o)
    = G m c (((cfg0.win 9).blk t).view.emb (ix3 (0 : Fin 1) r o))
  rw [hi]
  refine (payload_apply (iblk m c 0 t) (iblk m c 1 t) (iblk m c 2 t) (iblk m c 3 t) (iblk m c 4 t) (iblk m c 5 t) (iblk m c 6 t)
    (iblk m c 7 t) (iblk m c 8 t) r o).trans ?_
  show _ = Gat m c (⟨win0_9.index t (0 : Fin 3), hb⟩ : Fin 4) (⟨win0_9.index t (1 : Fin 3) * 512 + r.val, by omega⟩ : Fin 8192) o
  unfold Gat
  simp only [h0, h1, h2, h3, h4, h5, h6, h7, h8]

/-! ## Every index of the output is in one point's block -/

/-- An index of the array is in point `t`'s block iff each coordinate is in the block's range on its axis. -/
theorem mem_blk9 (t : Fin cfg0.N) (i : S4x8192x128.Idx) :
    i ∈ ((cfg0.win 9).blk t).view.set ↔ ∀ a : Fin 3, win0_9.index t a * S1x512x128.size a ≤ (i a).val
      ∧ (i a).val < win0_9.index t a * S1x512x128.size a + S1x512x128.size a := by
  show i ∈ ((View.whole main_v22).slice (win0_9.rect t)).set ↔ _
  rw [View.set_slice_whole, Rect.mem_set_unit]
  exact Iff.rfl

/-- Index (b, n, o) is in the block of the point whose block indices are (b, n / 512, 0). -/
theorem cover9 (i : S4x8192x128.Idx) : ∃ t : Fin cfg0.N, (cfg0.win 9).flush t = true ∧ i ∈ ((cfg0.win 9).blk t).view.set := by
  have hi0 : (i 0).val < 4 := (i 0).isLt
  have hi1 : (i 1).val < 8192 := (i 1).isLt
  have hi2 : (i 2).val < 128 := (i 2).isLt
  obtain ⟨t, ht⟩ := idx_onto ⟨(i 0).val, hi0⟩ ⟨(i 1).val / 512, by omega⟩
  have q0 : win0_9.index t (0 : Fin 3) = (i 0).val := congrFun ht 0
  have q1 : win0_9.index t (1 : Fin 3) = (i 1).val / 512 := congrFun ht 1
  have q2 : win0_9.index t (2 : Fin 3) = 0 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 128 ≤ (i 2).val ∧ (i 2).val < win0_9.index t (2 : Fin 3) * 128 + 128; omega

/-! ## The array after the run, and the run -/

/-- THE OUTPUT ARRAY after the run is `G`. -/
theorem final9 (c : Dev nD) : (dats m 0 c).arrAt 9 cfg0.N = G m c :=
  (dats m 0 c).arrAt_eq_of_cover 9 (G m c) (fun t _ => flushed9_eq m c t) cover9

/-- The kernel's run with its result array at `G`, the arguments unchanged. -/
theorem run : θ_run defs (onTc (τ := τ) (main (F := Ideal))) ⟨m, fun _ => 0, ρ⟩ fun r => ∀ c : Dev nD,
      r.2.mem ((c : Thread nD τ).loc main_v22) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final9 m c), (h c).2⟩) (Cert.KernelIdeal.Value.run_blocks m ρ)

end Cert.KnnMlp.KernelValue

end
-- ==== Proof.KernelOperands.lean ====
/-
  The arrays the region finds, read off the arguments.

  Before the region the program gathers the neighbour rows (the start indices are the neighbour indices with negative
  ones wrapped by the number of points), cuts the first weight matrix into its low, middle and high blocks of 64 rows
  and forms low − high and middle + high, and views each bias as a row. Changes of float format are the identity on
  the extended reals. So at (b, n, o) the output function is the specification's tail over the FOLDED first layer of
  the arguments, with the gathered rows as the neighbour rows.
-/
import proofs.«102421_j42872363548712_1_alg».proof.Proof.KernelValue
import Idealize.ShloMosaic.Lib.StableHlo.Run
import Idealize.ShloMosaic.Lib.ValueLayout

noncomputable section

namespace Cert.KnnMlp.KernelValue

open Cert.KernelIdeal Cert.KernelIdeal.Gen Idealize.ShloMosaic Idealize.ShloMosaic.TcCoe Idealize.SL.Sem
open Idealize.ShloMosaic.ValueIdx Idealize.ShloMosaic.StableHlo Cert.KnnMlp

variable (m : (ℓ : Loc nD τ sig) → Buf (Elt Ideal) ℓ)

/-- The gather's start indices: the neighbour indices, a negative one wrapped by the number of points. -/
def gatherIdx (a1 : IVec S4x8192x16 32) : IVec S4x8192x16x1 32 :=
  broadcastInDim S4x8192x16x1 ![0, 1, 2] bcast_S4x8192x16_S4x8192x16x1_0_1_2
    (select (cmpi .slt a1 (broadcastInDim S4x8192x16 ![] bcast_S_S4x8192x16 (constantI S_ 32 0#32)))
      (addi a1 (broadcastInDim S4x8192x16 ![] bcast_S_S4x8192x16 (constantI S_ 32 8192#32))) a1)

/-- The gathered neighbour rows. -/
def gathered (a0 : FVec Ideal S4x8192x64 .f32) (a1 : IVec S4x8192x16 32) : FVec Ideal S4x8192x16x64 .f32 :=
  Host.gather gather_S4x8192x64_S4x8192x16x1_S4x8192x16x64_3_1_0_0_1_3_1164 a0 (gatherIdx a1)

/-- A gathered entry is an entry of the feature array, whatever the indices are: if every feature is a real number, so is
    every gathered entry. -/
theorem gathered_isReal (a0 : FVec Ideal S4x8192x64 .f32) (a1 : IVec S4x8192x16 32) (hf : ∀ i, IsReal (a0 i))
    (j : S4x8192x16x64.Idx) : IsReal (gathered a0 a1 j) := hf _

/-! ## Each array as the host operations leave it -/

theorem aF_eq (c : Dev nD) : aF m c = truncf .bf16 (m ((c : Thread nD τ).loc main_arg0)) bitsLt_bf16_f32 := by
  dsimp only [aF, V, hostOps0]
  after_results <;> rfl

theorem aK_eq (c : Dev nD) : aK m c = truncf .bf16 (gathered (m ((c : Thread nD τ).loc main_arg0)) (m ((c : Thread nD τ).loc main_arg1))) bitsLt_bf16_f32 := by
  dsimp only [aK, V, hostOps0]
  after_results <;> rfl

theorem aWf_eq (c : Dev nD) : aWf m c = truncf .bf16
    (subf (extractStridedSlice S64x128 ![0, 0] (m ((c : Thread nD τ).loc main_arg2)) slices_S192x128_S64x128_0_0)
      (extractStridedSlice S64x128 ![128, 0] (m ((c : Thread nD τ).loc main_arg2)) slices_S192x128_S64x128_128_0)) bitsLt_bf16_f32 := by
  dsimp only [aWf, V, hostOps0]
  after_results <;> rfl

theorem aWk_eq (c : Dev nD) : aWk m c = truncf .bf16
    (addf (extractStridedSlice S64x128 ![64, 0] (m ((c : Thread nD τ).loc main_arg2)) slices_S192x128_S64x128_64_0)
      (extractStridedSlice S64x128 ![128, 0] (m ((c : Thread nD τ).loc main_arg2)) slices_S192x128_S64x128_128_0)) bitsLt_bf16_f32 := by
  dsimp only [aWk, V, hostOps0]
  after_results <;> rfl

theorem aB1_eq (c : Dev nD) : aB1 m c = shapeCast S1x128 (m ((c : Thread nD τ).loc main_arg3)) shapeCasts_S128_S1x128 := by
  dsimp only [aB1, V, hostOps0]
  after_results <;> rfl

theorem aW2_eq (c : Dev nD) : aW2 m c = truncf .bf16 (m ((c : Thread nD τ).loc main_arg4)) bitsLt_bf16_f32 := by
  dsimp only [aW2, V, hostOps0]
  after_results <;> rfl

theorem aB2_eq (c : Dev nD) : aB2 m c = shapeCast S1x128 (m ((c : Thread nD τ).loc main_arg5)) shapeCasts_S128_S1x128 := by
  dsimp only [aB2, V, hostOps0]
  after_results <;> rfl

theorem aW3_eq (c : Dev nD) : aW3 m c = truncf .bf16 (m ((c : Thread nD τ).loc main_arg6)) bitsLt_bf16_f32 := by
  dsimp only [aW3, V, hostOps0]
  after_results <;> rfl

theorem aB3_eq (c : Dev nD) : aB3 m c = shapeCast S1x128 (m ((c : Thread nD τ).loc main_arg7)) shapeCasts_S128_S1x128 := by
  dsimp only [aB3, V, hostOps0]
  after_results <;> rfl

/-! ## The output function over arrays given as variables -/

/-- The output at (b, n, o) from nine arrays of the region's literal shapes. -/
def GatOf (A0 : FVec Ideal S4x8192x64 .bf16) (A1 : FVec Ideal S4x8192x16x64 .bf16) (A2 A3 : FVec Ideal S64x128 .bf16)
    (A4 : FVec Ideal S1x128 .f32) (A5 : FVec Ideal S128x128 .bf16) (A6 : FVec Ideal S1x128 .f32)
    (A7 : FVec Ideal S128x128 .bf16) (A8 : FVec Ideal S1x128 .f32) (b : Fin 4) (n : Fin 8192) (o : Fin 128) : EReal :=
  mlpTail
    (fun k g => ((∑ c' : Fin 64, A0 (ix3 b n c') * A2 (ix2 c' g)) + ∑ c' : Fin 64, A1 (ix4 b n k c') * A3 (ix2 c' g))
      + A4 (ix2 (0 : Fin 1) g))
    (fun g h => A5 (ix2 g h)) (fun h => A6 (ix2 (0 : Fin 1) h)) (fun h o' => A7 (ix2 h o'))
    (fun o' => A8 (ix2 (0 : Fin 1) o')) o

/-- The output function is `GatOf` of the arrays the region finds. -/
theorem Gat_of (c : Dev nD) (b : Fin 4) (n : Fin 8192) (o : Fin 128) :
    Gat m c b n o
      = GatOf (aF m c) (aK m c) (aWf m c) (aWk m c) (aB1 m c) (aW2 m c) (aB2 m c) (aW3 m c) (aB3 m c) b n o := rfl

/-- With the arrays as the host operations make them from arguments `a0 … a7` and gathered rows `Kg`: the features
    and the gathered rows unchanged, the first weights' low block minus high block and middle block plus high block, each
    bias as a row, the other weights unchanged — the output is the tail over the FOLDED first layer of the arguments. -/
theorem GatOf_args (a0 : FVec Ideal S4x8192x64 .f32) (Kg : FVec Ideal S4x8192x16x64 .f32) (a2 : FVec Ideal S192x128 .f32)
    (a3 : FVec Ideal S128 .f32) (a4 : FVec Ideal S128x128 .f32) (a5 : FVec Ideal S128 .f32) (a6 : FVec Ideal S128x128 .f32)
    (a7 : FVec Ideal S128 .f32) (b : Fin 4) (n : Fin 8192) (o : Fin 128) :
    GatOf (truncf .bf16 a0 bitsLt_bf16_f32) (truncf .bf16 Kg bitsLt_bf16_f32)
        (truncf .bf16 (subf (extractStridedSlice S64x128 ![0, 0] a2 slices_S192x128_S64x128_0_0)
          (extractStridedSlice S64x128 ![128, 0] a2 slices_S192x128_S64x128_128_0)) bitsLt_bf16_f32)
        (truncf .bf16 (addf (extractStridedSlice S64x128 ![64, 0] a2 slices_S192x128_S64x128_64_0)
          (extractStridedSlice S64x128 ![128, 0] a2 slices_S192x128_S64x128_128_0)) bitsLt_bf16_f32)
        (shapeCast S1x128 a3 shapeCasts_S128_S1x128) (truncf .bf16 a4 bitsLt_bf16_f32)
        (shapeCast S1x128 a5 shapeCasts_S128_S1x128) (truncf .bf16 a6 bitsLt_bf16_f32)
        (shapeCast S1x128 a7 shapeCasts_S128_S1x128) b n o
      = mlpTail
          (pre1Folded (fun c' => a0 (ix3 b n c')) (fun k c' => Kg (ix4 b n k c')) (fun c' g => a2 (ix2 c' g)) (fun g => a3 (ix1 g)))
          (fun g h => a4 (ix2 g h)) (fun h => a5 (ix1 h)) (fun h o' => a6 (ix2 h o')) (fun o' => a7 (ix1 o')) o := by
  have hWf : ∀ (c' : Fin 64) (g : Fin 128),
      (truncf .bf16 (subf (extractStridedSlice S64x128 ![0, 0] a2 slices_S192x128_S64x128_0_0)
        (extractStridedSlice S64x128 ![128, 0] a2 slices_S192x128_S64x128_128_0)) bitsLt_bf16_f32 : FVec Ideal S64x128 .bf16) (ix2 c' g)
        = a2 (ix2 (rowLo c') g) - a2 (ix2 (rowHi c') g) := fun c' g => by
    rw [truncf_apply, subf_apply,
      slice2_axis0_apply 0 a2 slices_S192x128_S64x128_0_0 c' g (rowLo c') (Nat.zero_add _).symm,
      slice2_axis0_apply 128 a2 slices_S192x128_S64x128_128_0 c' g (rowHi c') rfl]
  have hWk : ∀ (c' : Fin 64) (g : Fin 128),
      (truncf .bf16 (addf (extractStridedSlice S64x128 ![64, 0] a2 slices_S192x128_S64x128_64_0)
        (extractStridedSlice S64x128 ![128, 0] a2 slices_S192x128_S64x128_128_0)) bitsLt_bf16_f32 : FVec Ideal S64x128 .bf16) (ix2 c' g)
        = a2 (ix2 (rowMid c') g) + a2 (ix2 (rowHi c') g) := fun c' g => by
    rw [truncf_apply, addf_apply,
      slice2_axis0_apply 64 a2 slices_S192x128_S64x128_64_0 c' g (rowMid c') rfl,
      slice2_axis0_apply 128 a2 slices_S192x128_S64x128_128_0 c' g (rowHi c') rfl]
  unfold GatOf pre1Folded
  simp only [hWf, hWk, truncf_apply, shapeCast_a_1a_apply]

/-! ## The output function over the arguments -/

/-- THE KERNEL'S OUTPUT at (b, n, o): the tail over the folded first layer of the arguments, the gathered rows as the
    neighbour rows. -/
theorem Gat_eq (c : Dev nD) (b : Fin 4) (n : Fin 8192) (o : Fin 128) :
    Gat m c b n o
      = mlpTail
          (pre1Folded (fun c' => m ((c : Thread nD τ).loc main_arg0) (ix3 b n c')) (fun k c' => gathered (m ((c : Thread nD τ).loc main_arg0)) (m ((c : Thread nD τ).loc main_arg1)) (ix4 b n k c'))
            (fun c' g => m ((c : Thread nD τ).loc main_arg2) (ix2 c' g)) (fun g => m ((c : Thread nD τ).loc main_arg3) (ix1 g)))
          (fun g h => m ((c : Thread nD τ).loc main_arg4) (ix2 g h)) (fun h => m ((c : Thread nD τ).loc main_arg5) (ix1 h)) (fun h o' => m ((c : Thread nD τ).loc main_arg6) (ix2 h o'))
          (fun o' => m ((c : Thread nD τ).loc main_arg7) (ix1 o')) o := by
  rw [Gat_of, aF_eq, aK_eq, aWf_eq, aWk_eq, aB1_eq, aW2_eq, aB2_eq, aW3_eq, aB3_eq]
  exact GatOf_args _ _ _ _ _ _ _ _ b n o

end Cert.KnnMlp.KernelValue

end
-- ==== Proof.lean ====
/-
  The certificate of a neighbourhood convolution unit: for each point of a cloud, its feature row and its sixteen
  gathered neighbour rows go through a three-layer perceptron with a maximum over the neighbours between the second and
  third layers.

  The reference forms, per point and neighbour, the concatenated row [f, K, K − f] and multiplies it by the whole first
  weight matrix. The kernel never forms it: it folds the matrix's three blocks of rows into  low − high  and
  middle + high  on the host and multiplies f and K by those. Both gather the neighbour rows by the same host
  operations, and a gathered entry is always an entry of the feature array, so under the precondition (every float input
  finite) the features, the gathered rows and the first weights are real numbers, and the two first layers are equal by
  distributivity (Proof/MlpSpec.lean). From there on the two programs apply the same operations, which the specification
  states once as its tail. The kernel's output array is read block by block and found to be one function of the
  arguments (Proof/KernelPayload.lean, Proof/KernelValue.lean, Proof/KernelOperands.lean); the reference's result is
  read operation by operation (Proof/RefIsSpec.lean); finiteness is read off the precondition (Proof/FiniteInputs.lean).
  The frames are the generated ones; the idealization rewrote nothing, so `preserves` has nothing to show.
-/
import proofs.«102421_j42872363548712_1_alg».proof.Defs
import proofs.«102421_j42872363548712_1_alg».proof.Proof.Gen.Kernel
import proofs.«102421_j42872363548712_1_alg».proof.Proof.Gen.Kernel.Skeleton
import proofs.«102421_j42872363548712_1_alg».proof.Proof.Gen.Kernel.Launch
import proofs.«102421_j42872363548712_1_alg».proof.Proof.Gen.Kernel.Points
import proofs.«102421_j42872363548712_1_alg».proof.Proof.Gen.Kernel.Frame
import proofs.«102421_j42872363548712_1_alg».proof.Proof.Gen.KernelIdeal
import proofs.«102421_j42872363548712_1_alg».proof.Proof.Gen.KernelIdeal.Skeleton
import proofs.«102421_j42872363548712_1_alg».proof.Proof.Gen.KernelIdeal.Launch
import proofs.«102421_j42872363548712_1_alg».proof.Proof.Gen.KernelIdeal.Points
import proofs.«102421_j42872363548712_1_alg».proof.Proof.Gen.KernelIdeal.Frame
import proofs.«102421_j42872363548712_1_alg».proof.Proof.Gen.ReferenceIdeal
import proofs.«102421_j42872363548712_1_alg».proof.Proof.Gen.KernelIdeal.Value
import proofs.«102421_j42872363548712_1_alg».proof.Proof.Gen.ReferenceIdeal.Run
import proofs.«102421_j42872363548712_1_alg».proof.Proof.Gen.ReferenceIdeal.Read
import proofs.«102421_j42872363548712_1_alg».proof.Proof.Gen.Pre_finite_inputs
import proofs.«102421_j42872363548712_1_alg».proof.Proof.MlpSpec
import proofs.«102421_j42872363548712_1_alg».proof.Proof.FiniteInputs
import proofs.«102421_j42872363548712_1_alg».proof.Proof.RefIsSpec
import proofs.«102421_j42872363548712_1_alg».proof.Proof.KernelValue
import proofs.«102421_j42872363548712_1_alg».proof.Proof.KernelOperands
import Idealize.ShloMosaic.Adequacy
import Idealize.ShloMosaic.Init

noncomputable section

namespace Cert.Proof

open Idealize.ShloMosaic Idealize.ShloMosaic.ValueIdx Idealize.SL.Sem Cert.KnnMlp

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-! ## The two results are one function -/

/-- Both programs gather with the same start indices: the reference's gathered rows are the kernel's. -/
theorem gathered_same (x0 : FVec Ideal Cert.KernelIdeal.S4x8192x64 .f32) (x1 : IVec Cert.KernelIdeal.S4x8192x16 32) :
    Cert.ReferenceIdeal.Read.val_main_v6 (F := Ideal) x0 x1 = Cert.KnnMlp.KernelValue.gathered x0 x1 := rfl

/-- From memories agreeing on the arguments both programs run, and the reference's result is the kernel's output
    function: at (b, n, o) both are the specification's tail, over the concatenated first layer for the one and the folded
    first layer for the other, equal because the features, the gathered rows and the first weights are real numbers. -/
theorem algebraic : Cert.algebraic_KernelIdeal_ReferenceIdeal := by
  intro m ρ m' ρ' hpre hagree
  refine ⟨fun c => Cert.KnnMlp.KernelValue.G m c, Cert.KnnMlp.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v25_eq, e0, e1, e2, e3, e4, e5, e6, e7]
  obtain ⟨hf, hW⟩ := Cert.KnnMlp.Finite.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (hpre c)
  funext i
  obtain ⟨b, n, o, rfl⟩ : ∃ (b : Fin 4) (n : Fin 8192) (o : Fin 128), i = ix3 b n o := ⟨i 0, i 1, i 2, eq_ix3 i⟩
  rw [Cert.KnnMlp.Ref.ref_apply, gathered_same]
  show _ = Cert.KnnMlp.KernelValue.Gat m c b n o
  rw [Cert.KnnMlp.KernelValue.Gat_eq]
  refine congrArg (fun P => mlpTail P _ _ _ _ o) (funext fun k => funext fun g => ?_)
  exact pre1Concat_eq_pre1Folded _ _ _ _ (fun c' => hf _)
    (fun k' c' => Cert.KnnMlp.KernelValue.gathered_isReal _ _ hf _) (fun c' g' => hW _) k g

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
